-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x600000 32) (main_arg2 : FVec F S128x256 .f32) (main_arg3 : FVec F S256 .f32) (main_arg4 : FVec F S256x128 .f32) (main_arg5 : FVec F S128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S1x256 : Shape := ⟨2, ![1, 256]⟩
abbrev S1x128 : Shape := ⟨2, ![1, 128]⟩
abbrev S2000x128 : Shape := ⟨2, ![2000, 128]⟩
abbrev S2000x256 : Shape := ⟨2, ![2000, 256]⟩
abbrev S1x128x128 : Shape := ⟨3, ![1, 128, 128]⟩
abbrev S_ : Shape := ⟨0, ![]⟩
abbrev S600000x1 : Shape := ⟨2, ![600000, 1]⟩
abbrev S600000x128 : Shape := ⟨2, ![600000, 128]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 79
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S1x256, .f32⟩
  | .hbm, ⟨17, _⟩ => ⟨S1x128, .f32⟩
  | .hbm, ⟨18, _⟩ => ⟨S100000x128, .f32⟩
  | .hbm, ⟨19, _⟩ => ⟨S1x128x128, .f32⟩
  | .hbm, ⟨20, _⟩ => ⟨S128x128, .f32⟩
  | .hbm, ⟨21, _⟩ => ⟨S100000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S1x128, .f32⟩
  | .hbm, ⟨36, _⟩ => ⟨S128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S100000x128, .f32⟩
  | .hbm, ⟨52, _⟩ => ⟨S600000x1, .i32⟩
  | .hbm, ⟨53, _⟩ => ⟨S100000x128, .f32⟩
  | .hbm, ⟨54, _⟩ => ⟨S1x128, .f32⟩
  | .hbm, ⟨55, _⟩ => ⟨S128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S1x128, .f32⟩
  | .hbm, ⟨74, _⟩ => ⟨S128, .f32⟩
  | .hbm, ⟨75, _⟩ => ⟨S1x128, .f32⟩
  | .hbm, ⟨76, _⟩ => ⟨S1x128, .f32⟩
  | .hbm, ⟨77, _⟩ => ⟨S1x40, .f32⟩
  | .hbm, ⟨78, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x40, .f32⟩
  | .local _ .vmem, ⟨31, _⟩ => ⟨S1x40, .f32⟩
  | .local _ .vmem, ⟨32, _⟩ => ⟨S2000x40, .f32⟩
  | .local _ .vmem, ⟨33, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x40 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x40.size a ≤ S128x40.size a
  hwx4_4 : ∀ i : grid4.Coords, EltTy.bits .f32 = 32 ∨ (Rect.block (s := S128x40) S128x40.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x40.size a ≤ S1x40.size a
  hwx4_5 : ∀ i : grid4.Coords, EltTy.bits .f32 = 32 ∨ (Rect.block (s := S1x40) S1x40.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x40.size a ≤ S100000x40.size a
  hwx4_6 : ∀ i : grid4.Coords, EltTy.bits .f32 = 32 ∨ (Rect.block (s := S100000x40) S2000x40.size (cc4_transform_6 i) (hinb4_6 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x40.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S1x40.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S2000x40.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S100000x256 : Shape := ⟨2, ![100000, 256]⟩
abbrev S1x256 : Shape := ⟨2, ![1, 256]⟩
abbrev S_ : Shape := ⟨0, ![]⟩
abbrev S1x128 : Shape := ⟨2, ![1, 128]⟩
abbrev S1x128x128 : Shape := ⟨3, ![1, 128, 128]⟩
abbrev S600000x1 : Shape := ⟨2, ![600000, 1]⟩
abbrev S600000x128 : Shape := ⟨2, ![600000, 128]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S1x128x128, .f32⟩
  | .hbm, ⟨28, _⟩ => ⟨S128x128, .f32⟩
  | .hbm, ⟨29, _⟩ => ⟨S100000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S1x128x128, .f32⟩
  | .hbm, ⟨52, _⟩ => ⟨S128x128, .f32⟩
  | .hbm, ⟨53, _⟩ => ⟨S100000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S100000x128, .f32⟩
  | .hbm, ⟨65, _⟩ => ⟨S600000x1, .i32⟩
  | .hbm, ⟨66, _⟩ => ⟨S100000x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S100000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S100000x128, .f32⟩
  | .hbm, ⟨89, _⟩ => ⟨S600000x1, .i32⟩
  | .hbm, ⟨90, _⟩ => ⟨S100000x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x40, .f32⟩
  | .hbm, ⟨107, _⟩ => ⟨S1x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_v36 : Ref sig .tc := ⟨.hbm, 56, rfl⟩
abbrev main_c_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_cst : Ref sig .tc := ⟨.hbm, 72, rfl⟩
abbrev main_call2_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_c_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call3_cst : Ref sig .tc := ⟨.hbm, 96, rfl⟩
abbrev main_call3_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_call4_cst : Ref sig .tc := ⟨.hbm, 103, rfl⟩
abbrev main_call4_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call5_cst : Ref sig .tc := ⟨.hbm, 110, rfl⟩
abbrev main_call5_v0 : Ref sig .tc := ⟨.hbm, 111, rfl⟩
abbrev main_call5_cst_0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_cst_1 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_v79 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x40_S100000x40_1_0_0_1_n_n_wf : DotDims.WF S100000x128 S128x40 S100000x40 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The network's stages as whole-array functions, written with the host operations of the reference program.

  A graph network over 100000 nodes with 128 features and 600000 directed edges: an encoder (two dense layers with a
  rectifier between them), three rounds of message passing — a dense transform of every node's features, then every
  node receives the sum of the transformed features of the sources of its incoming edges, then a per-feature offset and
  a rectifier —, and a decoder (two dense layers) followed by a row-wise log-softmax over the 40 classes.

  Each stage below is ONE function of the arrays it reads. Offsets enter as one-row arrays (`[1, n]`) and are repeated
  down the rows; a rectifier is the maximum with the zero array; a dense layer is a plain matrix product, rows by a
  weight matrix. `hop` is the message-passing sum: the sources' rows are gathered (a negative node number counted from
  the end) and added into the rows the destinations name, starting from zero. `logSoftmax` subtracts from every row its
  maximum, then the logarithm of the sum of the exponentials of what is left.
-/
import proofs.«126352_j70978629534135_1_alg».proof.Proof.Gen.ReferenceIdeal

noncomputable section

namespace Cert.Spec

open Idealize.ShloMosaic Cert.ReferenceIdeal Cert.ReferenceIdeal.Gen

variable {F : FTy → Type} [FloatOps F]

/-- The edges' source nodes: row 0 of the edge list. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The edges' destination nodes: row 1 of the edge list. -/
def dstOf (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- Matrix `k` of a stack of three 128×128 weight matrices. -/
def weight0 (gw : (⟨S3x128x128, .f32⟩ : BufTy).Contents (Elt F)) : (⟨S128x128, .f32⟩ : BufTy).Contents (Elt F) :=
  shapeCast _ (extractStridedSlice S1x128x128 ![0, 0, 0] gw slices_S3x128x128_S1x128x128_0_0_0) shapeCasts_S1x128x128_S128x128
def weight1 (gw : (⟨S3x128x128, .f32⟩ : BufTy).Contents (Elt F)) : (⟨S128x128, .f32⟩ : BufTy).Contents (Elt F) :=
  shapeCast _ (extractStridedSlice S1x128x128 ![1, 0, 0] gw slices_S3x128x128_S1x128x128_1_0_0) shapeCasts_S1x128x128_S128x128
def weight2 (gw : (⟨S3x128x128, .f32⟩ : BufTy).Contents (Elt F)) : (⟨S128x128, .f32⟩ : BufTy).Contents (Elt F) :=
  shapeCast _ (extractStridedSlice S1x128x128 ![2, 0, 0] gw slices_S3x128x128_S1x128x128_2_0_0) shapeCasts_S1x128x128_S128x128

/-- Row `k` of a stack of three offset vectors, as a one-row array. -/
def offset0 (gb : (⟨S3x128, .f32⟩ : BufTy).Contents (Elt F)) : (⟨S1x128, .f32⟩ : BufTy).Contents (Elt F) :=
  broadcastInDim S1x128 ![1] bcast_S128_S1x128_1 (shapeCast _ (extractStridedSlice S1x128 ![0, 0] gb slices_S3x128_S1x128_0_0) shapeCasts_S1x128_S128)
def offset1 (gb : (⟨S3x128, .f32⟩ : BufTy).Contents (Elt F)) : (⟨S1x128, .f32⟩ : BufTy).Contents (Elt F) :=
  broadcastInDim S1x128 ![1] bcast_S128_S1x128_1 (shapeCast _ (extractStridedSlice S1x128 ![1, 0] gb slices_S3x128_S1x128_1_0) shapeCasts_S1x128_S128)
def offset2 (gb : (⟨S3x128, .f32⟩ : BufTy).Contents (Elt F)) : (⟨S1x128, .f32⟩ : BufTy).Contents (Elt F) :=
  broadcastInDim S1x128 ![1] bcast_S128_S1x128_1 (shapeCast _ (extractStridedSlice S1x128 ![2, 0] gb slices_S3x128_S1x128_2_0) shapeCasts_S1x128_S128)

/-- An offset vector as a one-row array. -/
def row256 (b : (⟨S256, .f32⟩ : BufTy).Contents (Elt F)) : (⟨S1x256, .f32⟩ : BufTy).Contents (Elt F) := broadcastInDim S1x256 ![1] bcast_S256_S1x256_1 b
def row128 (b : (⟨S128, .f32⟩ : BufTy).Contents (Elt F)) : (⟨S1x128, .f32⟩ : BufTy).Contents (Elt F) := broadcastInDim S1x128 ![1] bcast_S128_S1x128_1 b
def row40 (b : (⟨S40, .f32⟩ : BufTy).Contents (Elt F)) : (⟨S1x40, .f32⟩ : BufTy).Contents (Elt F) := broadcastInDim S1x40 ![1] bcast_S40_S1x40_1 b

/-- THE ENCODER: `max (x · w1 + b1) 0 · w2 + b2`, row by row. -/
def encode (x : (⟨S100000x128, .f32⟩ : BufTy).Contents (Elt F)) (w1 : (⟨S128x256, .f32⟩ : BufTy).Contents (Elt F)) (b1r : (⟨S1x256, .f32⟩ : BufTy).Contents (Elt F))
    (w2 : (⟨S256x128, .f32⟩ : BufTy).Contents (Elt F)) (b2r : (⟨S1x128, .f32⟩ : BufTy).Contents (Elt F)) : (⟨S100000x128, .f32⟩ : BufTy).Contents (Elt F) :=
  addf (Host.dotGeneral dot_S100000x256_S256x128_S100000x128_1_0_0_1_n_n none (maximumf (addf (Host.dotGeneral dot_S100000x128_S128x256_S100000x256_1_0_0_1_n_n none x w1) (broadcastInDim S100000x256 ![0, 1] bcast_S1x256_S100000x256_0_1 b1r)) (broadcastInDim S100000x256 ![] bcast_S_S100000x256 (constant S_ .f32 0x00000000#32))) w2) (broadcastInDim S100000x128 ![0, 1] bcast_S1x128_S100000x128_0_1 b2r)

/-- A DENSE TRANSFORM: `h · w`. -/
def transform (h : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none h w

/-- MESSAGE PASSING: row `d` of the result is the sum, over the edges whose destination is `d`, of the row of `hw` the
    edge's source names. -/
def hop (hw : (⟨S100000x128, .f32⟩ : BufTy).Contents (Elt F)) (src dst : (⟨S600000, .i32⟩ : BufTy).Contents (Elt F)) : (⟨S100000x128, .f32⟩ : BufTy).Contents (Elt F) :=
  Host.scatterAdd scatter_S100000x128_S600000x1_S600000x128_1_0_0_1 (broadcastInDim S100000x128 ![] bcast_S_S100000x128 (constant S_ .f32 0x00000000#32)) (broadcastInDim S600000x1 ![0] bcast_S600000_S600000x1_0 dst) (Host.gather gather_S100000x128_S600000x1_S600000x128_1_0_n_n_0_1_1128 hw (broadcastInDim S600000x1 ![0] bcast_S600000_S600000x1_0 (select (cmpi .slt src (broadcastInDim S600000 ![] bcast_S_S600000 (constantI S_ 32 0#32))) (addi src (broadcastInDim S600000 ![] bcast_S_S600000 (constantI S_ 32 100000#32))) src)))

/-- THE CLOSE OF ONE ROUND AND THE TRANSFORM OF THE NEXT: `max (agg + b) 0 · w`. -/
def finTransform (agg : (⟨S100000x128, .f32⟩ : BufTy).Contents (Elt F)) (br : (⟨S1x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none (maximumf (addf agg (broadcastInDim S100000x128 ![0, 1] bcast_S1x128_S100000x128_0_1 br)) (broadcastInDim S100000x128 ![] bcast_S_S100000x128 (constant S_ .f32 0x00000000#32))) w

/-- THE DECODER'S LOGITS: `max (max (agg + gb) 0 · w1 + b1) 0 · w2 + b2`. -/
def logits (agg : (⟨S100000x128, .f32⟩ : BufTy).Contents (Elt F)) (gbr : (⟨S1x128, .f32⟩ : BufTy).Contents (Elt F)) (w1 : (⟨S128x128, .f32⟩ : BufTy).Contents (Elt F))
    (b1r : (⟨S1x128, .f32⟩ : BufTy).Contents (Elt F)) (w2 : (⟨S128x40, .f32⟩ : BufTy).Contents (Elt F)) (b2r : (⟨S1x40, .f32⟩ : BufTy).Contents (Elt F)) : (⟨S100000x40, .f32⟩ : BufTy).Contents (Elt F) :=
  addf (Host.dotGeneral dot_S100000x128_S128x40_S100000x40_1_0_0_1_n_n none (maximumf (addf (Host.dotGeneral dot_S100000x128_S128x128_S100000x128_1_0_0_1_n_n none (maximumf (addf agg (broadcastInDim S100000x128 ![0, 1] bcast_S1x128_S100000x128_0_1 gbr)) (broadcastInDim S100000x128 ![] bcast_S_S100000x128 (constant S_ .f32 0x00000000#32))) w1) (broadcastInDim S100000x128 ![0, 1] bcast_S1x128_S100000x128_0_1 b1r)) (broadcastInDim S100000x128 ![] bcast_S_S100000x128 (constant S_ .f32 0x00000000#32))) w2) (broadcastInDim S100000x40 ![0, 1] bcast_S1x40_S100000x40_0_1 b2r)

/-- ROW-WISE LOG-SOFTMAX: with `s = z - max_row z`, the result is `s - log (sum_row (exp s))`. -/
def logSoftmax (z : (⟨S100000x40, .f32⟩ : BufTy).Contents (Elt F)) : (⟨S100000x40, .f32⟩ : BufTy).Contents (Elt F) :=
  subf (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))))) (constant S_ .f32 0x00000000#32) reducesTo_S100000x40_S100000_d1 h_S_))))

/-- THE WHOLE NETWORK as the composition of its stages. -/
def network (x : (⟨S100000x128, .f32⟩ : BufTy).Contents (Elt F)) (ei : (⟨S2x600000, .i32⟩ : BufTy).Contents (Elt F)) (w1 : (⟨S128x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) (gw : (⟨S3x128x128, .f32⟩ : BufTy).Contents (Elt F)) (gb : (⟨S3x128, .f32⟩ : BufTy).Contents (Elt F))
    (dw1 : (⟨S128x128, .f32⟩ : BufTy).Contents (Elt F)) (db1 : (⟨S128, .f32⟩ : BufTy).Contents (Elt F)) (dw2 : (⟨S128x40, .f32⟩ : BufTy).Contents (Elt F)) (db2 : (⟨S40, .f32⟩ : BufTy).Contents (Elt F)) :
    (⟨S100000x40, .f32⟩ : BufTy).Contents (Elt F) :=
  logSoftmax (logits
    (hop (finTransform
      (hop (finTransform
        (hop (transform (encode x w1 (row256 b1) w2 (row128 b2)) (weight0 gw)) (srcOf ei) (dstOf ei))
        (offset0 gb) (weight1 gw)) (srcOf ei) (dstOf ei))
      (offset1 gb) (weight2 gw)) (srcOf ei) (dstOf ei))
    (offset2 gb) dw1 (row128 db1) dw2 (row40 db2))

end Cert.Spec

end
-- ==== Proof.RefS0.lean ====
/-
  Stretch 0 of the reference's line of host operations: the edge list's two rows (4 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000 ]

/-- What the stretch leaves in `main_v1`: the edge list's two rows, of what it finds. -/
theorem s0_main_v1 (W : Valuation τ sig (Elt F)) :
    after s0 W (Proc.devRef .tc main_v1) = Cert.Spec.srcOf (W (Proc.devRef .tc main_arg1)) := by
  unfold s0
  after_results_simp <;> (try simp only [TRef.ofBuf, TRef.toBuf, cast_eq]) <;> rfl

/-- What the stretch leaves in `main_v3`: the edge list's two rows, of what it finds. -/
theorem s0_main_v3 (W : Valuation τ sig (Elt F)) :
    after s0 W (Proc.devRef .tc main_v3) = Cert.Spec.dstOf (W (Proc.devRef .tc main_arg1)) := by
  unfold s0
  after_results_simp <;> (try simp only [TRef.ofBuf, TRef.toBuf, cast_eq]) <;> rfl

theorem s0_keep_main_arg0 (W : Valuation τ sig (Elt F)) : after s0 W (Proc.devRef .tc main_arg0) = W (Proc.devRef .tc main_arg0) := by
  unfold s0
  after_results_simp

theorem s0_keep_main_arg2 (W : Valuation τ sig (Elt F)) : after s0 W (Proc.devRef .tc main_arg2) = W (Proc.devRef .tc main_arg2) := by
  unfold s0
  after_results_simp

theorem s0_keep_main_arg3 (W : Valuation τ sig (Elt F)) : after s0 W (Proc.devRef .tc main_arg3) = W (Proc.devRef .tc main_arg3) := by
  unfold s0
  after_results_simp

theorem s0_keep_main_arg4 (W : Valuation τ sig (Elt F)) : after s0 W (Proc.devRef .tc main_arg4) = W (Proc.devRef .tc main_arg4) := by
  unfold s0
  after_results_simp

theorem s0_keep_main_arg5 (W : Valuation τ sig (Elt F)) : after s0 W (Proc.devRef .tc main_arg5) = W (Proc.devRef .tc main_arg5) := by
  unfold s0
  after_results_simp

theorem s0_keep_main_arg6 (W : Valuation τ sig (Elt F)) : after s0 W (Proc.devRef .tc main_arg6) = W (Proc.devRef .tc main_arg6) := by
  unfold s0
  after_results_simp

theorem s0_keep_main_arg7 (W : Valuation τ sig (Elt F)) : after s0 W (Proc.devRef .tc main_arg7) = W (Proc.devRef .tc main_arg7) := by
  unfold s0
  after_results_simp

theorem s0_keep_main_arg8 (W : Valuation τ sig (Elt F)) : after s0 W (Proc.devRef .tc main_arg8) = W (Proc.devRef .tc main_arg8) := by
  unfold s0
  after_results_simp

theorem s0_keep_main_arg9 (W : Valuation τ sig (Elt F)) : after s0 W (Proc.devRef .tc main_arg9) = W (Proc.devRef .tc main_arg9) := by
  unfold s0
  after_results_simp

theorem s0_keep_main_arg10 (W : Valuation τ sig (Elt F)) : after s0 W (Proc.devRef .tc main_arg10) = W (Proc.devRef .tc main_arg10) := by
  unfold s0
  after_results_simp

theorem s0_keep_main_arg11 (W : Valuation τ sig (Elt F)) : after s0 W (Proc.devRef .tc main_arg11) = W (Proc.devRef .tc main_arg11) := by
  unfold s0
  after_results_simp

end Cert.ReferenceIdeal.RefChain

end
-- ==== Proof.RefS1.lean ====
/-
  Stretch 1 of the reference's line of host operations: the encoder (11 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s1 : List (HloOp τ sig (Elt F)) :=
  [ binary main_arg0 main_arg2 main_v4 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v7) (TRef.of (T := ⟨S100000x256, .f32⟩) main_call0_v0) (TRef.of (T := ⟨S100000x256, .f32⟩) main_v8) maximumf,
    binary main_v8 main_arg4 main_v9 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v9 main_v11 main_v12 (addf : (⟨S100000x128, .f32⟩ : BufTy).Contents (Elt F) → (⟨S100000x128, .f32⟩ : BufTy).Contents (Elt F) → (⟨S100000x128, .f32⟩ : BufTy).Contents (Elt F)) ]

/-- What the stretch leaves in `main_v12`: the encoder, of what it finds. -/
theorem s1_main_v12 (W : Valuation τ sig (Elt F)) :
    after s1 W (Proc.devRef .tc main_v12) = Cert.Spec.encode (W (Proc.devRef .tc main_arg0)) (W (Proc.devRef .tc main_arg2)) (Cert.Spec.row256 (W (Proc.devRef .tc main_arg3))) (W (Proc.devRef .tc main_arg4)) (Cert.Spec.row128 (W (Proc.devRef .tc main_arg5))) := by
  unfold s1
  after_results_simp <;> (try simp only [TRef.ofBuf, TRef.toBuf, cast_eq]) <;> rfl

theorem s1_keep_main_v1 (W : Valuation τ sig (Elt F)) : after s1 W (Proc.devRef .tc main_v1) = W (Proc.devRef .tc main_v1) := by
  unfold s1
  after_results_simp

theorem s1_keep_main_v3 (W : Valuation τ sig (Elt F)) : after s1 W (Proc.devRef .tc main_v3) = W (Proc.devRef .tc main_v3) := by
  unfold s1
  after_results_simp

theorem s1_keep_main_arg6 (W : Valuation τ sig (Elt F)) : after s1 W (Proc.devRef .tc main_arg6) = W (Proc.devRef .tc main_arg6) := by
  unfold s1
  after_results_simp

theorem s1_keep_main_arg7 (W : Valuation τ sig (Elt F)) : after s1 W (Proc.devRef .tc main_arg7) = W (Proc.devRef .tc main_arg7) := by
  unfold s1
  after_results_simp

theorem s1_keep_main_arg8 (W : Valuation τ sig (Elt F)) : after s1 W (Proc.devRef .tc main_arg8) = W (Proc.devRef .tc main_arg8) := by
  unfold s1
  after_results_simp

theorem s1_keep_main_arg9 (W : Valuation τ sig (Elt F)) : after s1 W (Proc.devRef .tc main_arg9) = W (Proc.devRef .tc main_arg9) := by
  unfold s1
  after_results_simp

theorem s1_keep_main_arg10 (W : Valuation τ sig (Elt F)) : after s1 W (Proc.devRef .tc main_arg10) = W (Proc.devRef .tc main_arg10) := by
  unfold s1
  after_results_simp

theorem s1_keep_main_arg11 (W : Valuation τ sig (Elt F)) : after s1 W (Proc.devRef .tc main_arg11) = W (Proc.devRef .tc main_arg11) := by
  unfold s1
  after_results_simp

end Cert.ReferenceIdeal.RefChain

end
-- ==== Proof.RefS2.lean ====
/-
  Stretch 2 of the reference's line of host operations: round 0's dense transform (3 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s2 : List (HloOp τ sig (Elt F)) :=
  [ unary main_arg6 main_v13 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v13 main_v14 rfl shapeCasts_S1x128x128_S128x128,
    binary main_v12 main_v14 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- What the stretch leaves in `main_v15`: round 0's dense transform, of what it finds. -/
theorem s2_main_v15 (W : Valuation τ sig (Elt F)) :
    after s2 W (Proc.devRef .tc main_v15) = Cert.Spec.transform (W (Proc.devRef .tc main_v12)) (Cert.Spec.weight0 (W (Proc.devRef .tc main_arg6))) := by
  unfold s2
  after_results_simp <;> (try simp only [TRef.ofBuf, TRef.toBuf, cast_eq]) <;> rfl

theorem s2_keep_main_v1 (W : Valuation τ sig (Elt F)) : after s2 W (Proc.devRef .tc main_v1) = W (Proc.devRef .tc main_v1) := by
  unfold s2
  after_results_simp

theorem s2_keep_main_v3 (W : Valuation τ sig (Elt F)) : after s2 W (Proc.devRef .tc main_v3) = W (Proc.devRef .tc main_v3) := by
  unfold s2
  after_results_simp

theorem s2_keep_main_arg6 (W : Valuation τ sig (Elt F)) : after s2 W (Proc.devRef .tc main_arg6) = W (Proc.devRef .tc main_arg6) := by
  unfold s2
  after_results_simp

theorem s2_keep_main_arg7 (W : Valuation τ sig (Elt F)) : after s2 W (Proc.devRef .tc main_arg7) = W (Proc.devRef .tc main_arg7) := by
  unfold s2
  after_results_simp

theorem s2_keep_main_arg8 (W : Valuation τ sig (Elt F)) : after s2 W (Proc.devRef .tc main_arg8) = W (Proc.devRef .tc main_arg8) := by
  unfold s2
  after_results_simp

theorem s2_keep_main_arg9 (W : Valuation τ sig (Elt F)) : after s2 W (Proc.devRef .tc main_arg9) = W (Proc.devRef .tc main_arg9) := by
  unfold s2
  after_results_simp

theorem s2_keep_main_arg10 (W : Valuation τ sig (Elt F)) : after s2 W (Proc.devRef .tc main_arg10) = W (Proc.devRef .tc main_arg10) := by
  unfold s2
  after_results_simp

theorem s2_keep_main_arg11 (W : Valuation τ sig (Elt F)) : after s2 W (Proc.devRef .tc main_arg11) = W (Proc.devRef .tc main_arg11) := by
  unfold s2
  after_results_simp

end Cert.ReferenceIdeal.RefChain

end
-- ==== Proof.RefS3.lean ====
/-
  Stretch 3 of the reference's line of host operations: round 0's message passing (13 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s3 : List (HloOp τ sig (Elt F)) :=
  [ nullary main_c (constantI S_ 32 0#32),
    unary main_c main_v16 (broadcastInDim S600000 ![] bcast_S_S600000 : (⟨S_, .i32⟩ : BufTy).Contents (Elt F) → (⟨S600000, .i32⟩ : BufTy).Contents (Elt F)),
    binary main_v1 main_v16 main_v17 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v18 (broadcastInDim S600000 ![] bcast_S_S600000 : (⟨S_, .i32⟩ : BufTy).Contents (Elt F) → (⟨S600000, .i32⟩ : BufTy).Contents (Elt F)),
    binary main_v1 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v15 main_v21 main_v22 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v23 (broadcastInDim S100000x128 ![] bcast_S_S100000x128 : (⟨S_, .f32⟩ : BufTy).Contents (Elt F) → (⟨S100000x128, .f32⟩ : BufTy).Contents (Elt F)),
    unary main_v3 main_v24 (broadcastInDim S600000x1 ![0] bcast_S600000_S600000x1_0 : (⟨S600000, .i32⟩ : BufTy).Contents (Elt F) → (⟨S600000x1, .i32⟩ : BufTy).Contents (Elt F)),
    ternary main_v23 main_v24 main_v22 main_v25 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- What the stretch leaves in `main_v25`: round 0's message passing, of what it finds. -/
theorem s3_main_v25 (W : Valuation τ sig (Elt F)) :
    after s3 W (Proc.devRef .tc main_v25) = Cert.Spec.hop (W (Proc.devRef .tc main_v15)) (W (Proc.devRef .tc main_v1)) (W (Proc.devRef .tc main_v3)) := by
  unfold s3
  after_results_simp <;> (try simp only [TRef.ofBuf, TRef.toBuf, cast_eq]) <;> rfl

theorem s3_keep_main_v1 (W : Valuation τ sig (Elt F)) : after s3 W (Proc.devRef .tc main_v1) = W (Proc.devRef .tc main_v1) := by
  unfold s3
  after_results_simp

theorem s3_keep_main_v3 (W : Valuation τ sig (Elt F)) : after s3 W (Proc.devRef .tc main_v3) = W (Proc.devRef .tc main_v3) := by
  unfold s3
  after_results_simp

theorem s3_keep_main_arg6 (W : Valuation τ sig (Elt F)) : after s3 W (Proc.devRef .tc main_arg6) = W (Proc.devRef .tc main_arg6) := by
  unfold s3
  after_results_simp

theorem s3_keep_main_arg7 (W : Valuation τ sig (Elt F)) : after s3 W (Proc.devRef .tc main_arg7) = W (Proc.devRef .tc main_arg7) := by
  unfold s3
  after_results_simp

theorem s3_keep_main_arg8 (W : Valuation τ sig (Elt F)) : after s3 W (Proc.devRef .tc main_arg8) = W (Proc.devRef .tc main_arg8) := by
  unfold s3
  after_results_simp

theorem s3_keep_main_arg9 (W : Valuation τ sig (Elt F)) : after s3 W (Proc.devRef .tc main_arg9) = W (Proc.devRef .tc main_arg9) := by
  unfold s3
  after_results_simp

theorem s3_keep_main_arg10 (W : Valuation τ sig (Elt F)) : after s3 W (Proc.devRef .tc main_arg10) = W (Proc.devRef .tc main_arg10) := by
  unfold s3
  after_results_simp

theorem s3_keep_main_arg11 (W : Valuation τ sig (Elt F)) : after s3 W (Proc.devRef .tc main_arg11) = W (Proc.devRef .tc main_arg11) := by
  unfold s3
  after_results_simp

end Cert.ReferenceIdeal.RefChain

end
-- ==== Proof.RefS4.lean ====
/-
  Stretch 4 of the reference's line of host operations: round 0's close and round 1's transform (11 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s4 : List (HloOp τ sig (Elt F)) :=
  [ unary main_arg7 main_v26 ((extractStridedSlice S1x128 ![0, 0] · slices_S3x128_S1x128_0_0) : (⟨S3x128, .f32⟩ : BufTy).Contents (Elt F) → (⟨S1x128, .f32⟩ : BufTy).Contents (Elt F)),
    reshape main_v26 main_v27 rfl shapeCasts_S1x128_S128,
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v25 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v30) (TRef.of (T := ⟨S100000x128, .f32⟩) main_call1_v0) (TRef.of (T := ⟨S100000x128, .f32⟩) main_v31) maximumf,
    unary main_arg6 main_v32 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v32 main_v33 rfl shapeCasts_S1x128x128_S128x128,
    binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- What the stretch leaves in `main_v34`: round 0's close and round 1's transform, of what it finds. -/
theorem s4_main_v34 (W : Valuation τ sig (Elt F)) :
    after s4 W (Proc.devRef .tc main_v34) = Cert.Spec.finTransform (W (Proc.devRef .tc main_v25)) (Cert.Spec.offset0 (W (Proc.devRef .tc main_arg7))) (Cert.Spec.weight1 (W (Proc.devRef .tc main_arg6))) := by
  unfold s4
  after_results_simp <;> (try simp only [TRef.ofBuf, TRef.toBuf, cast_eq]) <;> rfl

theorem s4_keep_main_v1 (W : Valuation τ sig (Elt F)) : after s4 W (Proc.devRef .tc main_v1) = W (Proc.devRef .tc main_v1) := by
  unfold s4
  after_results_simp

theorem s4_keep_main_v3 (W : Valuation τ sig (Elt F)) : after s4 W (Proc.devRef .tc main_v3) = W (Proc.devRef .tc main_v3) := by
  unfold s4
  after_results_simp

theorem s4_keep_main_arg6 (W : Valuation τ sig (Elt F)) : after s4 W (Proc.devRef .tc main_arg6) = W (Proc.devRef .tc main_arg6) := by
  unfold s4
  after_results_simp

theorem s4_keep_main_arg7 (W : Valuation τ sig (Elt F)) : after s4 W (Proc.devRef .tc main_arg7) = W (Proc.devRef .tc main_arg7) := by
  unfold s4
  after_results_simp

theorem s4_keep_main_arg8 (W : Valuation τ sig (Elt F)) : after s4 W (Proc.devRef .tc main_arg8) = W (Proc.devRef .tc main_arg8) := by
  unfold s4
  after_results_simp

theorem s4_keep_main_arg9 (W : Valuation τ sig (Elt F)) : after s4 W (Proc.devRef .tc main_arg9) = W (Proc.devRef .tc main_arg9) := by
  unfold s4
  after_results_simp

theorem s4_keep_main_arg10 (W : Valuation τ sig (Elt F)) : after s4 W (Proc.devRef .tc main_arg10) = W (Proc.devRef .tc main_arg10) := by
  unfold s4
  after_results_simp

theorem s4_keep_main_arg11 (W : Valuation τ sig (Elt F)) : after s4 W (Proc.devRef .tc main_arg11) = W (Proc.devRef .tc main_arg11) := by
  unfold s4
  after_results_simp

end Cert.ReferenceIdeal.RefChain

end
-- ==== Proof.RefS5.lean ====
/-
  Stretch 5 of the reference's line of host operations: round 1's message passing (13 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s5 : List (HloOp τ sig (Elt F)) :=
  [ nullary main_c_1 (constantI S_ 32 0#32),
    unary main_c_1 main_v35 (broadcastInDim S600000 ![] bcast_S_S600000 : (⟨S_, .i32⟩ : BufTy).Contents (Elt F) → (⟨S600000, .i32⟩ : BufTy).Contents (Elt F)),
    binary main_v1 main_v35 main_v36 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v37 (broadcastInDim S600000 ![] bcast_S_S600000 : (⟨S_, .i32⟩ : BufTy).Contents (Elt F) → (⟨S600000, .i32⟩ : BufTy).Contents (Elt F)),
    binary main_v1 main_v37 main_v38 (addi : (⟨S600000, .i32⟩ : BufTy).Contents (Elt F) → (⟨S600000, .i32⟩ : BufTy).Contents (Elt F) → (⟨S600000, .i32⟩ : BufTy).Contents (Elt F)),
    ternary main_v36 main_v38 main_v1 main_v39 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v39 main_v40 (broadcastInDim S600000x1 ![0] bcast_S600000_S600000x1_0 : (⟨S600000, .i32⟩ : BufTy).Contents (Elt F) → (⟨S600000x1, .i32⟩ : BufTy).Contents (Elt F)),
    binary main_v34 main_v40 main_v41 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_3 (constant S_ .f32 0x00000000#32),
    unary main_cst_3 main_v42 (broadcastInDim S100000x128 ![] bcast_S_S100000x128 : (⟨S_, .f32⟩ : BufTy).Contents (Elt F) → (⟨S100000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- What the stretch leaves in `main_v44`: round 1's message passing, of what it finds. -/
theorem s5_main_v44 (W : Valuation τ sig (Elt F)) :
    after s5 W (Proc.devRef .tc main_v44) = Cert.Spec.hop (W (Proc.devRef .tc main_v34)) (W (Proc.devRef .tc main_v1)) (W (Proc.devRef .tc main_v3)) := by
  unfold s5
  after_results_simp <;> (try simp only [TRef.ofBuf, TRef.toBuf, cast_eq]) <;> rfl

theorem s5_keep_main_v1 (W : Valuation τ sig (Elt F)) : after s5 W (Proc.devRef .tc main_v1) = W (Proc.devRef .tc main_v1) := by
  unfold s5
  after_results_simp

theorem s5_keep_main_v3 (W : Valuation τ sig (Elt F)) : after s5 W (Proc.devRef .tc main_v3) = W (Proc.devRef .tc main_v3) := by
  unfold s5
  after_results_simp

theorem s5_keep_main_arg6 (W : Valuation τ sig (Elt F)) : after s5 W (Proc.devRef .tc main_arg6) = W (Proc.devRef .tc main_arg6) := by
  unfold s5
  after_results_simp

theorem s5_keep_main_arg7 (W : Valuation τ sig (Elt F)) : after s5 W (Proc.devRef .tc main_arg7) = W (Proc.devRef .tc main_arg7) := by
  unfold s5
  after_results_simp

theorem s5_keep_main_arg8 (W : Valuation τ sig (Elt F)) : after s5 W (Proc.devRef .tc main_arg8) = W (Proc.devRef .tc main_arg8) := by
  unfold s5
  after_results_simp

theorem s5_keep_main_arg9 (W : Valuation τ sig (Elt F)) : after s5 W (Proc.devRef .tc main_arg9) = W (Proc.devRef .tc main_arg9) := by
  unfold s5
  after_results_simp

theorem s5_keep_main_arg10 (W : Valuation τ sig (Elt F)) : after s5 W (Proc.devRef .tc main_arg10) = W (Proc.devRef .tc main_arg10) := by
  unfold s5
  after_results_simp

theorem s5_keep_main_arg11 (W : Valuation τ sig (Elt F)) : after s5 W (Proc.devRef .tc main_arg11) = W (Proc.devRef .tc main_arg11) := by
  unfold s5
  after_results_simp

end Cert.ReferenceIdeal.RefChain

end
-- ==== Proof.RefS6.lean ====
/-
  Stretch 6 of the reference's line of host operations: round 1's close and round 2's transform (11 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s6 : List (HloOp τ sig (Elt F)) :=
  [ unary main_arg7 main_v45 ((extractStridedSlice S1x128 ![1, 0] · slices_S3x128_S1x128_1_0) : (⟨S3x128, .f32⟩ : BufTy).Contents (Elt F) → (⟨S1x128, .f32⟩ : BufTy).Contents (Elt F)),
    reshape main_v45 main_v46 rfl shapeCasts_S1x128_S128,
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v44 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v49) (TRef.of (T := ⟨S100000x128, .f32⟩) main_call2_v0) (TRef.of (T := ⟨S100000x128, .f32⟩) main_v50) maximumf,
    unary main_arg6 main_v51 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v51 main_v52 rfl shapeCasts_S1x128x128_S128x128,
    binary main_v50 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- What the stretch leaves in `main_v53`: round 1's close and round 2's transform, of what it finds. -/
theorem s6_main_v53 (W : Valuation τ sig (Elt F)) :
    after s6 W (Proc.devRef .tc main_v53) = Cert.Spec.finTransform (W (Proc.devRef .tc main_v44)) (Cert.Spec.offset1 (W (Proc.devRef .tc main_arg7))) (Cert.Spec.weight2 (W (Proc.devRef .tc main_arg6))) := by
  unfold s6
  after_results_simp <;> (try simp only [TRef.ofBuf, TRef.toBuf, cast_eq]) <;> rfl

theorem s6_keep_main_v1 (W : Valuation τ sig (Elt F)) : after s6 W (Proc.devRef .tc main_v1) = W (Proc.devRef .tc main_v1) := by
  unfold s6
  after_results_simp

theorem s6_keep_main_v3 (W : Valuation τ sig (Elt F)) : after s6 W (Proc.devRef .tc main_v3) = W (Proc.devRef .tc main_v3) := by
  unfold s6
  after_results_simp

theorem s6_keep_main_arg7 (W : Valuation τ sig (Elt F)) : after s6 W (Proc.devRef .tc main_arg7) = W (Proc.devRef .tc main_arg7) := by
  unfold s6
  after_results_simp

theorem s6_keep_main_arg8 (W : Valuation τ sig (Elt F)) : after s6 W (Proc.devRef .tc main_arg8) = W (Proc.devRef .tc main_arg8) := by
  unfold s6
  after_results_simp

theorem s6_keep_main_arg9 (W : Valuation τ sig (Elt F)) : after s6 W (Proc.devRef .tc main_arg9) = W (Proc.devRef .tc main_arg9) := by
  unfold s6
  after_results_simp

theorem s6_keep_main_arg10 (W : Valuation τ sig (Elt F)) : after s6 W (Proc.devRef .tc main_arg10) = W (Proc.devRef .tc main_arg10) := by
  unfold s6
  after_results_simp

theorem s6_keep_main_arg11 (W : Valuation τ sig (Elt F)) : after s6 W (Proc.devRef .tc main_arg11) = W (Proc.devRef .tc main_arg11) := by
  unfold s6
  after_results_simp

end Cert.ReferenceIdeal.RefChain

end
-- ==== Proof.RefS7.lean ====
/-
  Stretch 7 of the reference's line of host operations: round 2's message passing (13 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s7 : List (HloOp τ sig (Elt F)) :=
  [ nullary main_c_4 (constantI S_ 32 0#32),
    unary main_c_4 main_v54 (broadcastInDim S600000 ![] bcast_S_S600000 : (⟨S_, .i32⟩ : BufTy).Contents (Elt F) → (⟨S600000, .i32⟩ : BufTy).Contents (Elt F)),
    binary main_v1 main_v54 main_v55 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v56 (broadcastInDim S600000 ![] bcast_S_S600000 : (⟨S_, .i32⟩ : BufTy).Contents (Elt F) → (⟨S600000, .i32⟩ : BufTy).Contents (Elt F)),
    binary main_v1 main_v56 main_v57 (addi : (⟨S600000, .i32⟩ : BufTy).Contents (Elt F) → (⟨S600000, .i32⟩ : BufTy).Contents (Elt F) → (⟨S600000, .i32⟩ : BufTy).Contents (Elt F)),
    ternary main_v55 main_v57 main_v1 main_v58 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v58 main_v59 (broadcastInDim S600000x1 ![0] bcast_S600000_S600000x1_0 : (⟨S600000, .i32⟩ : BufTy).Contents (Elt F) → (⟨S600000x1, .i32⟩ : BufTy).Contents (Elt F)),
    binary main_v53 main_v59 main_v60 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_6 (constant S_ .f32 0x00000000#32),
    unary main_cst_6 main_v61 (broadcastInDim S100000x128 ![] bcast_S_S100000x128 : (⟨S_, .f32⟩ : BufTy).Contents (Elt F) → (⟨S100000x128, .f32⟩ : BufTy).Contents (Elt F)),
    unary main_v3 main_v62 (broadcastInDim S600000x1 ![0] bcast_S600000_S600000x1_0 : (⟨S600000, .i32⟩ : BufTy).Contents (Elt F) → (⟨S600000x1, .i32⟩ : BufTy).Contents (Elt F)),
    ternary main_v61 main_v62 main_v60 main_v63 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

/-- What the stretch leaves in `main_v63`: round 2's message passing, of what it finds. -/
theorem s7_main_v63 (W : Valuation τ sig (Elt F)) :
    after s7 W (Proc.devRef .tc main_v63) = Cert.Spec.hop (W (Proc.devRef .tc main_v53)) (W (Proc.devRef .tc main_v1)) (W (Proc.devRef .tc main_v3)) := by
  unfold s7
  after_results_simp <;> (try simp only [TRef.ofBuf, TRef.toBuf, cast_eq]) <;> rfl

theorem s7_keep_main_arg7 (W : Valuation τ sig (Elt F)) : after s7 W (Proc.devRef .tc main_arg7) = W (Proc.devRef .tc main_arg7) := by
  unfold s7
  after_results_simp

theorem s7_keep_main_arg8 (W : Valuation τ sig (Elt F)) : after s7 W (Proc.devRef .tc main_arg8) = W (Proc.devRef .tc main_arg8) := by
  unfold s7
  after_results_simp

theorem s7_keep_main_arg9 (W : Valuation τ sig (Elt F)) : after s7 W (Proc.devRef .tc main_arg9) = W (Proc.devRef .tc main_arg9) := by
  unfold s7
  after_results_simp

theorem s7_keep_main_arg10 (W : Valuation τ sig (Elt F)) : after s7 W (Proc.devRef .tc main_arg10) = W (Proc.devRef .tc main_arg10) := by
  unfold s7
  after_results_simp

theorem s7_keep_main_arg11 (W : Valuation τ sig (Elt F)) : after s7 W (Proc.devRef .tc main_arg11) = W (Proc.devRef .tc main_arg11) := by
  unfold s7
  after_results_simp

end Cert.ReferenceIdeal.RefChain

end
-- ==== Proof.RefS8.lean ====
/-
  Stretch 8 of the reference's line of host operations: round 2's close and the decoder's logits (19 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s8 : List (HloOp τ sig (Elt F)) :=
  [ unary main_arg7 main_v64 ((extractStridedSlice S1x128 ![2, 0] · slices_S3x128_S1x128_2_0) : (⟨S3x128, .f32⟩ : BufTy).Contents (Elt F) → (⟨S1x128, .f32⟩ : BufTy).Contents (Elt F)),
    reshape main_v64 main_v65 rfl shapeCasts_S1x128_S128,
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v63 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v68) (TRef.of (T := ⟨S100000x128, .f32⟩) main_call3_v0) (TRef.of (T := ⟨S100000x128, .f32⟩) main_v69) maximumf,
    binary main_v69 main_arg8 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v73) (TRef.of (T := ⟨S100000x128, .f32⟩) main_call4_v0) (TRef.of (T := ⟨S100000x128, .f32⟩) main_v74) maximumf,
    binary main_v74 main_arg10 main_v75 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg11 main_v76 (broadcastInDim S1x40 ![1] bcast_S40_S1x40_1 : (⟨S40, .f32⟩ : BufTy).Contents (Elt F) → (⟨S1x40, .f32⟩ : BufTy).Contents (Elt F)),
    unary main_v76 main_v77 (broadcastInDim S100000x40 ![0, 1] bcast_S1x40_S100000x40_0_1 : (⟨S1x40, .f32⟩ : BufTy).Contents (Elt F) → (⟨S100000x40, .f32⟩ : BufTy).Contents (Elt F)),
    binary main_v75 main_v77 main_v78 (addf : (⟨S100000x40, .f32⟩ : BufTy).Contents (Elt F) → (⟨S100000x40, .f32⟩ : BufTy).Contents (Elt F) → (⟨S100000x40, .f32⟩ : BufTy).Contents (Elt F)) ]

/-- What the stretch leaves in `main_v78`: round 2's close and the decoder's logits, of what it finds. -/
theorem s8_main_v78 (W : Valuation τ sig (Elt F)) :
    after s8 W (Proc.devRef .tc main_v78) = Cert.Spec.logits (W (Proc.devRef .tc main_v63)) (Cert.Spec.offset2 (W (Proc.devRef .tc main_arg7))) (W (Proc.devRef .tc main_arg8)) (Cert.Spec.row128 (W (Proc.devRef .tc main_arg9))) (W (Proc.devRef .tc main_arg10)) (Cert.Spec.row40 (W (Proc.devRef .tc main_arg11))) := by
  unfold s8
  after_results_simp <;> (try simp only [TRef.ofBuf, TRef.toBuf, cast_eq]) <;> rfl

end Cert.ReferenceIdeal.RefChain

end
-- ==== Proof.RefS9.lean ====
/-
  Stretch 9 of the reference's line of host operations: the log-softmax's row maximum (5 operations). Over ANY contents `W` at its start it
  leaves in its output buffer the stage function of the buffers it reads, and every buffer it does not write as it was.
-/
import proofs.«126352_j70978629534135_1_alg».proof.Proof.Spec
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- A row's maximum over the 40 classes (folded from -inf, and once more against -inf). -/
def rowMax (z : (⟨S100000x40, .f32⟩ : BufTy).Contents (Elt F)) : (⟨S100000, .f32⟩ : BufTy).Contents (Elt F) :=
  maximumf (broadcastInDim S100000 ![] bcast_S_S100000 (constant S_ .f32 0xFF800000#32)) (Host.reduce FloatOps.maximumf z (constant S_ .f32 0xFF800000#32) reducesTo_S100000x40_S100000_d1 h_S_)

/-- Every entry less its row's maximum. -/
def shifted (z : (⟨S100000x40, .f32⟩ : BufTy).Contents (Elt F)) (mx : (⟨S100000, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0 mx))

/-- Every shifted entry less the logarithm of its row's sum of exponentials. -/
def finish (s : (⟨S100000x40, .f32⟩ : BufTy).Contents (Elt F)) : (⟨S100000x40, .f32⟩ : BufTy).Contents (Elt F) :=
  subf s (broadcastInDim S100000x40 ![0, 1] bcast_S100000x1_S100000x40_0_1 (Host.log (broadcastInDim S100000x1 ![0] bcast_S100000_S100000x1_0 (Host.reduceAdd (Host.exp s) (constant S_ .f32 0x00000000#32) reducesTo_S100000x40_S100000_d1 h_S_))))

/-- The row-wise log-softmax is the three steps in turn. -/
theorem logSoftmax_eq (z : (⟨S100000x40, .f32⟩ : BufTy).Contents (Elt F)) : Cert.Spec.logSoftmax z = finish (shifted z (rowMax z)) := rfl

/-- The stretch's operations, in order. -/
def s9 : List (HloOp τ sig (Elt F)) :=
  [ TRef.nullary (TRef.of (T := ⟨S_, .f32⟩) main_call5_cst) (constant S_ .f32 0xFF800000#32),
    TRef.binary (TRef.of (T := ⟨S100000x40, .f32⟩) main_v78) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf ]

/-- The same stretch with its functions as VARIABLES: what it leaves in `main_call5_v2` and that it keeps `main_v78`. Only the buffers' types matter
    here, so the functions stay closed boxes. -/
theorem s9_gen (c0 : (⟨S_, .f32⟩ : BufTy).Contents (Elt F)) (R : (⟨S100000x40, .f32⟩ : BufTy).Contents (Elt F) → (⟨S_, .f32⟩ : BufTy).Contents (Elt F) → (⟨S100000, .f32⟩ : BufTy).Contents (Elt F)) (c1 : (⟨S_, .f32⟩ : BufTy).Contents (Elt F)) (B : (⟨S_, .f32⟩ : BufTy).Contents (Elt F) → (⟨S100000, .f32⟩ : BufTy).Contents (Elt F)) (M : (⟨S100000, .f32⟩ : BufTy).Contents (Elt F) → (⟨S100000, .f32⟩ : BufTy).Contents (Elt F) → (⟨S100000, .f32⟩ : BufTy).Contents (Elt F)) (W : Valuation τ sig (Elt F)) :
    after ([ TRef.nullary (TRef.of (T := ⟨S_, .f32⟩) main_call5_cst) c0, TRef.binary (TRef.of (T := ⟨S100000x40, .f32⟩) main_v78) (TRef.of (T := ⟨S_, .f32⟩) main_call5_cst) (TRef.of (T := ⟨S100000, .f32⟩) main_call5_v0) R, TRef.nullary (TRef.of (T := ⟨S_, .f32⟩) main_call5_cst_0) c1, TRef.unary (TRef.of (T := ⟨S_, .f32⟩) main_call5_cst_0) (TRef.of (T := ⟨S100000, .f32⟩) main_call5_v1) B, TRef.binary (TRef.of (T := ⟨S100000, .f32⟩) main_call5_v1) (TRef.of (T := ⟨S100000, .f32⟩) main_call5_v0) (TRef.of (T := ⟨S100000, .f32⟩) main_call5_v2) M ] : List (HloOp τ sig (Elt F))) W (Proc.devRef .tc main_call5_v2) = M (B c1) (R (W (Proc.devRef .tc main_v78)) c0) := by
  after_results_simp <;> rfl

/-- What the stretch leaves in `main_call5_v2`: the log-softmax's row maximum, of what it finds. -/
theorem s9_main_call5_v2 (W : Valuation τ sig (Elt F)) :
    after s9 W (Proc.devRef .tc main_call5_v2) = rowMax (W (Proc.devRef .tc main_v78)) := by
  unfold s9 rowMax
  exact s9_gen _ _ _ _ _ W

theorem s9_keep_main_v78 (W : Valuation τ sig (Elt F)) : after s9 W (Proc.devRef .tc main_v78) = W (Proc.devRef .tc main_v78) := by
  unfold s9
  after_results_simp

end Cert.ReferenceIdeal.RefChain

end
-- ==== Proof.RefS10.lean ====
/-
  Stretch 10 of the reference's line of host operations: the log-softmax's shifted values (3 operations). Over ANY contents `W` at its start it
  leaves in its output buffer the stage function of the buffers it reads, and every buffer it does not write as it was.
-/
import proofs.«126352_j70978629534135_1_alg».proof.Proof.Spec
import proofs.«126352_j70978629534135_1_alg».proof.Proof.RefS9
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s10 : List (HloOp τ sig (Elt F)) :=
  [ TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v78) (TRef.of (T := ⟨S100000x40, .f32⟩) main_call5_v4) (TRef.of (T := ⟨S100000x40, .f32⟩) main_call5_v5) subf ]

/-- The same stretch with its functions as VARIABLES: what it leaves in `main_call5_v5` and that it keeps `nothing else`. Only the buffers' types matter
    here, so the functions stay closed boxes. -/
theorem s10_gen (B1 : (⟨S100000, .f32⟩ : BufTy).Contents (Elt F) → (⟨S100000x1, .f32⟩ : BufTy).Contents (Elt F)) (B2 : (⟨S100000x1, .f32⟩ : BufTy).Contents (Elt F) → (⟨S100000x40, .f32⟩ : BufTy).Contents (Elt F)) (Sb : (⟨S100000x40, .f32⟩ : BufTy).Contents (Elt F) → (⟨S100000x40, .f32⟩ : BufTy).Contents (Elt F) → (⟨S100000x40, .f32⟩ : BufTy).Contents (Elt F)) (W : Valuation τ sig (Elt F)) :
    after ([ TRef.unary (TRef.of (T := ⟨S100000, .f32⟩) main_call5_v2) (TRef.of (T := ⟨S100000x1, .f32⟩) main_call5_v3) B1, TRef.unary (TRef.of (T := ⟨S100000x1, .f32⟩) main_call5_v3) (TRef.of (T := ⟨S100000x40, .f32⟩) main_call5_v4) B2, TRef.binary (TRef.of (T := ⟨S100000x40, .f32⟩) main_v78) (TRef.of (T := ⟨S100000x40, .f32⟩) main_call5_v4) (TRef.of (T := ⟨S100000x40, .f32⟩) main_call5_v5) Sb ] : List (HloOp τ sig (Elt F))) W (Proc.devRef .tc main_call5_v5) = Sb (W (Proc.devRef .tc main_v78)) (B2 (B1 (W (Proc.devRef .tc main_call5_v2)))) := by
  after_results_simp <;> rfl

/-- What the stretch leaves in `main_call5_v5`: the log-softmax's shifted values, of what it finds. -/
theorem s10_main_call5_v5 (W : Valuation τ sig (Elt F)) :
    after s10 W (Proc.devRef .tc main_call5_v5) = shifted (W (Proc.devRef .tc main_v78)) (W (Proc.devRef .tc main_call5_v2)) := by
  unfold s10 shifted
  exact s10_gen _ _ _ W

end Cert.ReferenceIdeal.RefChain

end
-- ==== Proof.RefS11.lean ====
/-
  Stretch 11 of the reference's line of host operations: the log-softmax's log-sum and result (7 operations). Over ANY contents `W` at its start it
  leaves in its output buffer the stage function of the buffers it reads, and every buffer it does not write as it was.
-/
import proofs.«126352_j70978629534135_1_alg».proof.Proof.Spec
import proofs.«126352_j70978629534135_1_alg».proof.Proof.RefS9
import Idealize.ShloMosaic.Lib.StableHlo.Run

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def s11 : List (HloOp τ sig (Elt F)) :=
  [ TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v79) subf ]

/-- The same stretch with its functions as VARIABLES: what it leaves in `main_v79` and that it keeps `nothing else`. Only the buffers' types matter
    here, so the functions stay closed boxes. -/
theorem s11_gen (E : (⟨S100000x40, .f32⟩ : BufTy).Contents (Elt F) → (⟨S100000x40, .f32⟩ : BufTy).Contents (Elt F)) (c2 : (⟨S_, .f32⟩ : BufTy).Contents (Elt F)) (RA : (⟨S100000x40, .f32⟩ : BufTy).Contents (Elt F) → (⟨S_, .f32⟩ : BufTy).Contents (Elt F) → (⟨S100000, .f32⟩ : BufTy).Contents (Elt F)) (B1 : (⟨S100000, .f32⟩ : BufTy).Contents (Elt F) → (⟨S100000x1, .f32⟩ : BufTy).Contents (Elt F)) (L : (⟨S100000x1, .f32⟩ : BufTy).Contents (Elt F) → (⟨S100000x1, .f32⟩ : BufTy).Contents (Elt F)) (B2 : (⟨S100000x1, .f32⟩ : BufTy).Contents (Elt F) → (⟨S100000x40, .f32⟩ : BufTy).Contents (Elt F)) (Sb : (⟨S100000x40, .f32⟩ : BufTy).Contents (Elt F) → (⟨S100000x40, .f32⟩ : BufTy).Contents (Elt F) → (⟨S100000x40, .f32⟩ : BufTy).Contents (Elt F)) (W : Valuation τ sig (Elt F)) :
    after ([ TRef.unary (TRef.of (T := ⟨S100000x40, .f32⟩) main_call5_v5) (TRef.of (T := ⟨S100000x40, .f32⟩) main_call5_v6) E, TRef.nullary (TRef.of (T := ⟨S_, .f32⟩) main_call5_cst_1) c2, TRef.binary (TRef.of (T := ⟨S100000x40, .f32⟩) main_call5_v6) (TRef.of (T := ⟨S_, .f32⟩) main_call5_cst_1) (TRef.of (T := ⟨S100000, .f32⟩) main_call5_v7) RA, TRef.unary (TRef.of (T := ⟨S100000, .f32⟩) main_call5_v7) (TRef.of (T := ⟨S100000x1, .f32⟩) main_call5_v8) B1, TRef.unary (TRef.of (T := ⟨S100000x1, .f32⟩) main_call5_v8) (TRef.of (T := ⟨S100000x1, .f32⟩) main_call5_v9) L, TRef.unary (TRef.of (T := ⟨S100000x1, .f32⟩) main_call5_v9) (TRef.of (T := ⟨S100000x40, .f32⟩) main_call5_v10) B2, TRef.binary (TRef.of (T := ⟨S100000x40, .f32⟩) main_call5_v5) (TRef.of (T := ⟨S100000x40, .f32⟩) main_call5_v10) (TRef.of (T := ⟨S100000x40, .f32⟩) main_v79) Sb ] : List (HloOp τ sig (Elt F))) W (Proc.devRef .tc main_v79) = Sb (W (Proc.devRef .tc main_call5_v5)) (B2 (L (B1 (RA (E (W (Proc.devRef .tc main_call5_v5))) c2)))) := by
  after_results_simp <;> rfl

/-- What the stretch leaves in `main_v79`: the log-softmax's log-sum and result, of what it finds. -/
theorem s11_main_v79 (W : Valuation τ sig (Elt F)) :
    after s11 W (Proc.devRef .tc main_v79) = finish (W (Proc.devRef .tc main_call5_v5)) := by
  unfold s11 finish
  exact s11_gen _ _ _ _ _ _ _ W

end Cert.ReferenceIdeal.RefChain

end
-- ==== Proof.RefChain.lean ====
/-
  The reference program read stage by stage. Its @main is a straight line of 113 host operations; what it leaves in a buffer is
  the fold of the operations' results over the launch contents. The line is cut into twelve stretches, one per stage of the
  network: the edge list's two rows; the encoder; round 0's dense transform; round 0's message passing; round 0's close and round 1's transform; round 1's message passing; round 1's close and round 2's transform; round 2's message passing; round 2's close and the decoder's logits; the log-softmax's row maximum; the log-softmax's shifted values; the log-softmax's log-sum and result. Chaining the twelve —
  each stretch starts from what the one before left — the fold of all 113 operations at the result buffer is the network
  applied to the twelve argument arrays: each intermediate array is named once, where its stretch ends, and read by name
  afterwards.
-/
import proofs.«126352_j70978629534135_1_alg».proof.Proof.RefRun
import proofs.«126352_j70978629534135_1_alg».proof.Proof.RefS0
import proofs.«126352_j70978629534135_1_alg».proof.Proof.RefS1
import proofs.«126352_j70978629534135_1_alg».proof.Proof.RefS2
import proofs.«126352_j70978629534135_1_alg».proof.Proof.RefS3
import proofs.«126352_j70978629534135_1_alg».proof.Proof.RefS4
import proofs.«126352_j70978629534135_1_alg».proof.Proof.RefS5
import proofs.«126352_j70978629534135_1_alg».proof.Proof.RefS6
import proofs.«126352_j70978629534135_1_alg».proof.Proof.RefS7
import proofs.«126352_j70978629534135_1_alg».proof.Proof.RefS8
import proofs.«126352_j70978629534135_1_alg».proof.Proof.RefS9
import proofs.«126352_j70978629534135_1_alg».proof.Proof.RefS10
import proofs.«126352_j70978629534135_1_alg».proof.Proof.RefS11
import Idealize.ShloMosaic.Lib.Pipeline.Frame

noncomputable section

namespace Cert.ReferenceIdeal.RefChain

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The line is its twelve stretches, in order. -/
theorem ops_eq : (ops : List (HloOp τ sig (Elt F))) = s0 ++ (s1 ++ (s2 ++ (s3 ++ (s4 ++ (s5 ++ (s6 ++ (s7 ++ (s8 ++ (s9 ++ (s10 ++ (s11))))))))))) := rfl

/-- THE WHOLE LINE: the fold of the 113 operations at the result buffer, over any launch contents, is the network of the
    twelve argument arrays. -/
theorem result_eq (W : Valuation τ sig (Elt F)) :
    after (ops (F := F)) W (Proc.devRef .tc main_v79)
      = Cert.Spec.network (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_eq]
  simp only [StableHlo.after_append]
  rw [s11_main_v79,
    s10_main_call5_v5,
    s9_main_call5_v2,
    s9_keep_main_v78,
    s8_main_v78,
    s7_main_v63,
    s7_keep_main_arg7,
    s7_keep_main_arg8,
    s7_keep_main_arg9,
    s7_keep_main_arg10,
    s7_keep_main_arg11,
    s6_main_v53,
    s6_keep_main_v1,
    s6_keep_main_v3,
    s6_keep_main_arg7,
    s6_keep_main_arg8,
    s6_keep_main_arg9,
    s6_keep_main_arg10,
    s6_keep_main_arg11,
    s5_main_v44,
    s5_keep_main_v1,
    s5_keep_main_v3,
    s5_keep_main_arg6,
    s5_keep_main_arg7,
    s5_keep_main_arg8,
    s5_keep_main_arg9,
    s5_keep_main_arg10,
    s5_keep_main_arg11,
    s4_main_v34,
    s4_keep_main_v1,
    s4_keep_main_v3,
    s4_keep_main_arg6,
    s4_keep_main_arg7,
    s4_keep_main_arg8,
    s4_keep_main_arg9,
    s4_keep_main_arg10,
    s4_keep_main_arg11,
    s3_main_v25,
    s3_keep_main_v1,
    s3_keep_main_v3,
    s3_keep_main_arg6,
    s3_keep_main_arg7,
    s3_keep_main_arg8,
    s3_keep_main_arg9,
    s3_keep_main_arg10,
    s3_keep_main_arg11,
    s2_main_v15,
    s2_keep_main_v1,
    s2_keep_main_v3,
    s2_keep_main_arg6,
    s2_keep_main_arg7,
    s2_keep_main_arg8,
    s2_keep_main_arg9,
    s2_keep_main_arg10,
    s2_keep_main_arg11,
    s1_main_v12,
    s1_keep_main_v1,
    s1_keep_main_v3,
    s1_keep_main_arg6,
    s1_keep_main_arg7,
    s1_keep_main_arg8,
    s1_keep_main_arg9,
    s1_keep_main_arg10,
    s1_keep_main_arg11,
    s0_main_v1,
    s0_main_v3,
    s0_keep_main_arg0,
    s0_keep_main_arg2,
    s0_keep_main_arg3,
    s0_keep_main_arg4,
    s0_keep_main_arg5,
    s0_keep_main_arg6,
    s0_keep_main_arg7,
    s0_keep_main_arg8,
    s0_keep_main_arg9,
    s0_keep_main_arg10,
    s0_keep_main_arg11]
  unfold Cert.Spec.network
  rw [logSoftmax_eq]

end Cert.ReferenceIdeal.RefChain

end
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.LibPlainDot.lean ====
/-
  The host's plain matrix product read at one entry, over the extended reals.

  On the host a `dot_general` with the dimension numbers of an `M×K` by `K×N` product (`DotDims.plain M K N`) is, over the
  extended reals, the same exact sum as a kernel's product into the zero accumulator: at row `r` and column `c` the entry
  `∑ k, lhs (r, k) * rhs (k, c)`. The contraction index is re-indexed by its one coordinate `k : Fin K`; the operand
  indices the dimension numbers compute are `(r, k)` and `(k, c)` (the four coordinate facts of the kernel-side file).
  Stated for every `M`, `K`, `N`, with the indices built by `ix2`.
-/
import Idealize.ShloMosaic.Lib.ValueIdx
import Idealize.ShloMosaic.PureOps.Ideal.Laws
import proofs.«126352_j70978629534135_1_alg».proof.Proof.LibPlainMatmul

noncomputable section

namespace Cert.Lib.PlainDot

open Idealize.ShloMosaic Idealize.ShloMosaic.ValueIdx Cert.Lib.PlainMatmul

variable {M K N : Nat}

/-- THE ENTRY of the host's product: at `(r, c)` the sum over `k` of `lhs (r, k) * rhs (k, c)`, whatever the operands'
    formats and the precision hint. -/
theorem dotGeneral_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainDot

end
-- ==== Proof.Region0.lean ====
/-
  Region 0, the encoder: the array its write-backs leave is `max (x · w1 + b1) 0 · w2 + b2`, row by row.

  The grid has 50 points; point `t` reads rows `2000 t … 2000 t + 1999` of `x` (a 2000×128 block) and, whole, the 128×256
  weight `w1`, the one-row offset `b1`, the 256×128 weight `w2` and the one-row offset `b2`. It multiplies the block by `w1`
  into the zero accumulator, adds `b1` repeated down the rows, takes the maximum with zero, multiplies by `w2` into the zero
  accumulator, adds `b2` repeated down the rows, and writes the result back as block `t`. Over the extended reals the
  narrowing of the operands is the identity, so the entry `(p, q)` of the block's result is
  `(∑ k, max ((∑ j, x (2000 t + p, j) * w1 (j, k)) + b1 (0, k)) 0 * w2 (k, q)) + b2 (0, q)`, which is the entry
  `(2000 t + p, q)` of the same expression over the whole array: a row of the result depends on that row of `x` only.
  The 50 blocks tile the 100000 rows (row `r` is in block `r / 2000`), so the array ends holding the whole encoder.
-/
import proofs.«126352_j70978629534135_1_alg».proof.Proof.IdealFrame
import proofs.«126352_j70978629534135_1_alg».proof.Proof.Spec
import proofs.«126352_j70978629534135_1_alg».proof.Proof.LibPlainMatmul
import proofs.«126352_j70978629534135_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The block's hidden layer at an entry: the product with the first weight, the offset's one row, the maximum with zero. -/
theorem hid_apply (x0 : Vec Ideal S2000x128 .f32) (x1 : Vec Ideal S128x256 .f32) (x2 : Vec Ideal S1x256 .f32) (p : Fin 2000) (k : Fin 256) :
    maximumf (addf (matmul dot_S2000x128_S128x256_S2000x256_1_0_0_1_n_n none (truncf .bf16 x0 bitsLt_bf16_f32) (truncf .bf16 x1 bitsLt_bf16_f32) (constant (F := Ideal) S2000x256 .f32 0x00000000#32))
        (broadcastTo S2000x256 x2 broadcasts_S1x256_S2000x256)) (broadcast S2000x256 (Scalar.ofBits (F := Ideal) .f32 0x00000000#32)) (ix2 p k)
      = max ((∑ j : Fin 128, x0 (ix2 p j) * x1 (ix2 j k)) + x2 (ix2 (0 : Fin 1) k)) 0 := by
  rw [maximumf_apply, addf_apply, broadcast_apply]
  refine congrArg₂ max (congrArg₂ (· + ·) ?_ (broadcastTo_1b_ab_apply x2 broadcasts_S1x256_S2000x256 p k)) Ideal.ofBits_zero_f32
  refine (Cert.Lib.PlainMatmul.matmul_zero_apply (M := 2000) (K := 128) (N := 256) none _ _ p k).trans ?_
  rfl

/-- The block's result at an entry: the hidden layer times the second weight, summed over the 256 hidden indices, plus
    the second offset's one row. -/
theorem pay_apply (x0 : Vec Ideal S2000x128 .f32) (x1 : Vec Ideal S128x256 .f32) (x2 : Vec Ideal S1x256 .f32) (x3 : Vec Ideal S256x128 .f32) (x4 : Vec Ideal S1x128 .f32)
    (p : Fin 2000) (q : Fin 128) :
    k0_pay1 (F := Ideal) x0 x1 x2 x3 x4 (ix2 p q)
      = (∑ k : Fin 256, max ((∑ j : Fin 128, x0 (ix2 p j) * x1 (ix2 j k)) + x2 (ix2 (0 : Fin 1) k)) 0 * x3 (ix2 k q)) + x4 (ix2 (0 : Fin 1) q) := by
  unfold k0_pay1
  simp only [shapeCast_self]
  rw [addf_apply]
  refine congrArg₂ (· + ·) ?_ (broadcastTo_1b_ab_apply x4 broadcasts_S1x128_S2000x128 p q)
  refine (Cert.Lib.PlainMatmul.matmul_zero_apply (M := 2000) (K := 256) (N := 128) none _ _ p q).trans ?_
  refine Finset.sum_congr rfl fun k _ => ?_
  refine congrArg₂ (· * ·) ?_ rfl
  exact hid_apply x0 x1 x2 p k

/-- The encoder of the whole arrays at an entry: the same double sum, over the whole input's row. -/
theorem spec_apply (x : FVec Ideal S100000x128 .f32) (w1 : FVec Ideal S128x256 .f32) (b1 : FVec Ideal S1x256 .f32) (w2 : FVec Ideal S256x128 .f32) (b2 : FVec Ideal S1x128 .f32)
    (r : Fin 100000) (q : Fin 128) :
    Cert.Spec.encode (F := Ideal) x w1 b1 w2 b2 (ix2 r q)
      = (∑ k : Fin 256, max ((∑ j : Fin 128, x (ix2 r j) * w1 (ix2 j k)) + b1 (ix2 (0 : Fin 1) k)) 0 * w2 (ix2 k q)) + b2 (ix2 (0 : Fin 1) q) := by
  unfold Cert.Spec.encode
  rw [addf_apply]
  refine congrArg₂ (· + ·) ?_ (broadcastInDim_oneRow_apply _ b2 r q)
  refine (Cert.Lib.PlainDot.dotGeneral_apply (M := 100000) (K := 256) (N := 128) none _ w2 r q).trans ?_
  refine Finset.sum_congr rfl fun k _ => ?_
  refine congrArg₂ (· * ·) ?_ rfl
  rw [maximumf_apply, addf_apply]
  refine congrArg₂ max (congrArg₂ (· + ·) ?_ (broadcastInDim_oneRow_apply _ b1 r k)) ?_
  · exact Cert.Lib.PlainDot.dotGeneral_apply (M := 100000) (K := 128) (N := 256) none x w1 r k
  · refine (broadcastInDim_scalar_apply _ _ _).trans ?_
    exact Ideal.ofBits_zero_f32

/-- The printed index maps over the grid: the input rows' and the result's block index is the point's number on the rows
    and 0 on the columns; the two weights' and the two offsets' are 0 on both axes. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the input's block at point `t` is row `2000 t + p` of the array. -/
theorem blk0_apply (c : Dev nD) (t : Fin cfg0.N) (p : Fin 2000) (j : Fin 128) (h : 2000 * t.val + p.val < 100000) :
    iblk0 V c 0 t (ix2 p j) = V c main_arg0 (ix2 ⟨2000 * t.val + p.val, h⟩ j) := by
  obtain ⟨e0, e1, -⟩ := idx_facts t
  show V c main_arg0 (((cfg0.win 0).blk t).view.emb (ix2 p j)) = _
  refine congrArg (V c main_arg0) ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * j.val = j.val; omega

/-- The first weight's block at every point is the whole weight. -/
theorem blk1_apply (c : Dev nD) (t : Fin cfg0.N) (j : Fin 128) (k : Fin 256) :
    iblk0 V c 1 t (ix2 j k) = V c main_arg2 (ix2 j k) := by
  obtain ⟨-, -, e0, e1, -⟩ := idx_facts t
  show V c main_arg2 (((cfg0.win 1).blk t).view.emb (ix2 j k)) = _
  refine congrArg (V c main_arg2) ?_
  funext a; apply Fin.ext
  match a with
  | ⟨0, _⟩ => show win0_1.index t (0 : Fin 2) * 128 + 1 * j.val = j.val; omega
  | ⟨1, _⟩ => show win0_1.index t (1 : Fin 2) * 256 + 1 * k.val = k.val; omega

/-- The first offset's block at every point is the whole one-row array. -/
theorem blk2_apply (c : Dev nD) (t : Fin cfg0.N) (z : Fin 1) (k : Fin 256) :
    iblk0 V c 2 t (ix2 z k) = V c main_v4 (ix2 z k) := by
  obtain ⟨-, -, -, -, e0, e1, -⟩ := idx_facts t
  show V c main_v4 (((cfg0.win 2).blk t).view.emb (ix2 z k)) = _
  refine congrArg (V c main_v4) ?_
  funext a; apply Fin.ext
  match a with
  | ⟨0, _⟩ => show win0_2.index t (0 : Fin 2) * 1 + 1 * z.val = z.val; omega
  | ⟨1, _⟩ => show win0_2.index t (1 : Fin 2) * 256 + 1 * k.val = k.val; omega

/-- The second weight's block at every point is the whole weight. -/
theorem blk3_apply (c : Dev nD) (t : Fin cfg0.N) (k : Fin 256) (q : Fin 128) :
    iblk0 V c 3 t (ix2 k q) = V c main_arg4 (ix2 k q) := by
  obtain ⟨-, -, -, -, -, -, e0, e1, -⟩ := idx_facts t
  show V c main_arg4 (((cfg0.win 3).blk t).view.emb (ix2 k q)) = _
  refine congrArg (V c main_arg4) ?_
  funext a; apply Fin.ext
  match a with
  | ⟨0, _⟩ => show win0_3.index t (0 : Fin 2) * 256 + 1 * k.val = k.val; omega
  | ⟨1, _⟩ => show win0_3.index t (1 : Fin 2) * 128 + 1 * q.val = q.val; omega

/-- The second offset's block at every point is the whole one-row array. -/
theorem blk4_apply (c : Dev nD) (t : Fin cfg0.N) (z : Fin 1) (q : Fin 128) :
    iblk0 V c 4 t (ix2 z q) = V c main_v5 (ix2 z q) := by
  obtain ⟨-, -, -, -, -, -, -, -, e0, e1, -⟩ := idx_facts t
  show V c main_v5 (((cfg0.win 4).blk t).view.emb (ix2 z q)) = _
  refine congrArg (V c main_v5) ?_
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- An entry of the result's block at point `t` sits at row `2000 t + p` of the array. -/
theorem emb5_apply (t : Fin cfg0.N) (p : Fin 2000) (q : Fin 128) (h : 2000 * t.val + p.val < 100000) :
    ((cfg0.win 5).blk t).view.emb (ix2 p q) = (ix2 ⟨2000 * t.val + p.val, h⟩ q : S100000x128.Idx) := by
  obtain ⟨-, -, -, -, -, -, -, -, -, -, e0, e1⟩ := idx_facts t
  funext a; apply Fin.ext
  match a with
  | ⟨0, _⟩ => show win0_5.index t (0 : Fin 2) * 2000 + 1 * p.val = 2000 * t.val + p.val; omega
  | ⟨1, _⟩ => show win0_5.index t (1 : Fin 2) * 128 + 1 * q.val = q.val; omega

/-- WHAT POINT `t` WRITES BACK is block `t` of the encoder of the whole arrays: both sides at `(p, q)` are the same
    double sum, the block's rows being the array's rows `2000 t + p` and every other operand read whole. -/
theorem flushed_eq (c : Dev nD) (t : Fin cfg0.N) :
    (dat0 V c).flushed 5 t = ((cfg0.win 5).blk t).view.read (Elt Ideal)
      (Cert.Spec.encode (V c main_arg0) (V c main_arg2) (V c main_v4) (V c main_arg4) (V c main_v5)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  funext i
  obtain ⟨p, q, rfl⟩ : ∃ (p : Fin 2000) (q : Fin 128), i = ix2 p q := ⟨i 0, i 1, eq_ix2 i⟩
  have ht : t.val < 50 := t.isLt
  have hp : p.val < 2000 := p.isLt
  have h : 2000 * t.val + p.val < 100000 := by omega
  show k0_pay1 (iblk0 V c 0 t) (iblk0 V c 1 t) (iblk0 V c 2 t) (iblk0 V c 3 t) (iblk0 V c 4 t) (ix2 p q)
    = Cert.Spec.encode (V c main_arg0) (V c main_arg2) (V c main_v4) (V c main_arg4) (V c main_v5) (((cfg0.win 5).blk t).view.emb (ix2 p q))
  rw [emb5_apply t p q h]
  refine (pay_apply (iblk0 V c 0 t) (iblk0 V c 1 t) (iblk0 V c 2 t) (iblk0 V c 3 t) (iblk0 V c 4 t) p q).trans ?_
  refine Eq.trans ?_ (spec_apply (V c main_arg0) (V c main_arg2) (V c main_v4) (V c main_arg4) (V c main_v5) ⟨2000 * t.val + p.val, h⟩ q).symm
  rw [blk4_apply V c t 0 q]
  refine congrArg (· + V c main_v5 (ix2 (0 : Fin 1) q)) ?_
  refine Finset.sum_congr rfl fun k _ => ?_
  rw [blk3_apply V c t k q, blk2_apply V c t 0 k]
  refine congrArg (fun s => max (s + V c main_v4 (ix2 (0 : Fin 1) k)) 0 * V c main_arg4 (ix2 k q)) ?_
  refine Finset.sum_congr rfl fun j _ => ?_
  rw [blk0_apply V c t p j h, blk1_apply V c t j k]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v6).slice (win0_5.rect t)).set ↔ _
  rw [View.set_slice_whole, Rect.mem_set_unit]
  exact Iff.rfl

/-- The blocks tile the array: row `r` lies in the block of point `r / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 2000 < 50 := by omega
  refine ⟨⟨(i 0).val / 2000, hq⟩, flush0_5 _, ?_⟩
  obtain ⟨-, -, -, -, -, -, -, -, -, -, e0, e1⟩ := idx_facts ⟨(i 0).val / 2000, hq⟩
  rw [mem_blk]
  intro a
  match a with
  | ⟨0, _⟩ =>
    show win0_5.index ⟨(i 0).val / 2000, hq⟩ (0 : Fin 2) * 2000 ≤ (i 0).val ∧ (i 0).val < win0_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hq⟩ (1 : Fin 2) * 128 ≤ (i 1).val ∧ (i 1).val < win0_5.index ⟨(i 0).val / 2000, hq⟩ (1 : Fin 2) * 128 + 128
    rw [e1]; omega

/-- THE ARRAY after the region: the encoder of the arrays the region found. -/
theorem out (c : Dev nD) : (dat0 V c).arrAt 5 cfg0.N
    = Cert.Spec.encode (V c main_arg0) (V c main_arg2) (V c main_v4) (V c main_arg4) (V c main_v5) := by
  exact (dat0 V c).arrAt_eq_of_cover 5 _ (fun t _ => flushed_eq V c t) cover

end Cert.KernelIdeal.Region0

end
-- ==== Proof.Region1.lean ====
/-
  Region 1, the first round's dense transform: the array its write-backs leave is `h · w`.

  The grid has 50 points; point `t` reads rows `2000 t … 2000 t + 1999` of `h` (a 2000×128 block) and the whole 128×128
  weight, multiplies them into the zero accumulator, and writes the product back as block `t` of the result. Over the
  extended reals the entry `(p, q)` of the block's product is `∑ k, h (2000 t + p, k) * w (k, q)`, which is the entry
  `(2000 t + p, q)` of the whole product: a row of a matrix product depends on that row of the left factor only. The 50
  blocks tile the 100000 rows (row `r` is in block `r / 2000`), so the array ends holding the whole product.
-/
import proofs.«126352_j70978629534135_1_alg».proof.Proof.IdealFrame
import proofs.«126352_j70978629534135_1_alg».proof.Proof.Spec
import proofs.«126352_j70978629534135_1_alg».proof.Proof.LibPlainMatmul
import proofs.«126352_j70978629534135_1_alg».proof.Proof.LibPlainDot
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The block's product at an entry: the sum over the 128 shared indices. -/
theorem pay_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  simp only [shapeCast_self]
  refine (Cert.Lib.PlainMatmul.matmul_zero_apply (M := 2000) (K := 128) (N := 128) none _ _ p q).trans ?_
  rfl

/-- The whole product at an entry: the same sum, over the whole left factor's row. -/
theorem spec_apply (A : FVec Ideal S100000x128 .f32) (w : FVec Ideal S128x128 .f32) (r : Fin 100000) (q : Fin 128) :
    Cert.Spec.transform (F := Ideal) A w (ix2 r q) = ∑ k : Fin 128, A (ix2 r k) * w (ix2 k q) := by
  unfold Cert.Spec.transform
  exact Cert.Lib.PlainDot.dotGeneral_apply (M := 100000) (K := 128) (N := 128) none A w r q

/-- The printed index maps over the grid: the left factor's and the result's block index is the point's number on the
    rows and 0 on the columns; the weight's is 0 on both. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left factor's block at point `t` is row `2000 t + p` of the array. -/
theorem blk0_apply (c : Dev nD) (t : Fin cfg1.N) (p : Fin 2000) (k : Fin 128) (h : 2000 * t.val + p.val < 100000) :
    iblk1 V c 0 t (ix2 p k) = V c main_v6 (ix2 ⟨2000 * t.val + p.val, h⟩ k) := by
  obtain ⟨e0, e1, -, -, -, -⟩ := idx_facts t
  show V c main_v6 (((cfg1.win 0).blk t).view.emb (ix2 p k)) = _
  refine congrArg (V c main_v6) ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- The weight's block at every point is the whole weight. -/
theorem blk1_apply (c : Dev nD) (t : Fin cfg1.N) (k : Fin 128) (q : Fin 128) :
    iblk1 V c 1 t (ix2 k q) = V c main_v8 (ix2 k q) := by
  obtain ⟨-, -, e2, e3, -, -⟩ := idx_facts t
  show V c main_v8 (((cfg1.win 1).blk t).view.emb (ix2 k q)) = _
  refine congrArg (V c main_v8) ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- An entry of the result's block at point `t` sits at row `2000 t + p` of the array. -/
theorem emb2_apply (t : Fin cfg1.N) (p : Fin 2000) (q : Fin 128) (h : 2000 * t.val + p.val < 100000) :
    ((cfg1.win 2).blk t).view.emb (ix2 p q) = (ix2 ⟨2000 * t.val + p.val, h⟩ q : S100000x128.Idx) := by
  obtain ⟨-, -, -, -, e4, e5⟩ := idx_facts t
  funext a; apply Fin.ext
  match a with
  | ⟨0, _⟩ => show win1_2.index t (0 : Fin 2) * 2000 + 1 * p.val = 2000 * t.val + p.val; omega
  | ⟨1, _⟩ => show win1_2.index t (1 : Fin 2) * 128 + 1 * q.val = q.val; omega

/-- WHAT POINT `t` WRITES BACK is block `t` of the whole product. -/
theorem flushed_eq (c : Dev nD) (t : Fin cfg1.N) :
    (dat1 V c).flushed 2 t = ((cfg1.win 2).blk t).view.read (Elt Ideal) (Cert.Spec.transform (V c main_v6) (V c main_v8)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have h : 2000 * t.val + p.val < 100000 := by omega
  show k1_pay1 (iblk1 V c 0 t) (iblk1 V c 1 t) (ix2 p q)
    = Cert.Spec.transform (V c main_v6) (V c main_v8) (((cfg1.win 2).blk t).view.emb (ix2 p q))
  rw [emb2_apply t p q h]
  refine (pay_apply (iblk1 V c 0 t) (iblk1 V c 1 t) p q).trans ?_
  refine Eq.trans ?_ (spec_apply (V c main_v6) (V c main_v8) ⟨2000 * t.val + p.val, h⟩ q).symm
  refine Finset.sum_congr rfl fun k _ => ?_
  rw [blk0_apply V c t p k h, blk1_apply V c t k q]

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v9).slice (win1_2.rect t)).set ↔ _
  rw [View.set_slice_whole, Rect.mem_set_unit]
  exact Iff.rfl

/-- The blocks tile the array: row `r` lies in the block of point `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 2000 < 50 := by omega
  refine ⟨⟨(i 0).val / 2000, hq⟩, flush1_2 _, ?_⟩
  obtain ⟨-, -, -, -, e4, e5⟩ := idx_facts ⟨(i 0).val / 2000, hq⟩
  rw [mem_blk]
  intro a
  match a with
  | ⟨0, _⟩ =>
    show win1_2.index ⟨(i 0).val / 2000, hq⟩ (0 : Fin 2) * 2000 ≤ (i 0).val ∧ (i 0).val < win1_2.index ⟨(i 0).val / 2000, hq⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hq⟩ (1 : Fin 2) * 128 ≤ (i 1).val ∧ (i 1).val < win1_2.index ⟨(i 0).val / 2000, hq⟩ (1 : Fin 2) * 128 + 128
    rw [e5]; omega

/-- THE ARRAY after the region: the whole product of the two arrays the region found. -/
theorem out (c : Dev nD) : (dat1 V c).arrAt 2 cfg1.N = Cert.Spec.transform (V c main_v6) (V c main_v8) :=
  (dat1 V c).arrAt_eq_of_cover 2 _ (fun t _ => flushed_eq V c t) cover

end Cert.KernelIdeal.Region1

end
-- ==== Proof.Region2.lean ====
/-
  Region 2: the close of round 0 of the message passing and the dense transform of round 1. The array its write-backs leave is `max (agg + b) 0 · w`.

  The grid has 50 points; point `t` reads rows `2000 t … 2000 t + 1999` of the summed messages `agg` (a 2000×128 block), the
  whole one-row offset `b` and the whole 128×128 weight `w`; it adds the offset to every row, takes the maximum with zero,
  multiplies by the weight into the zero accumulator, and writes the product back as block `t` of the result. Over the
  extended reals the entry `(p, q)` of the block's result is `∑ k, max (agg (2000 t + p, k) + b (0, k)) 0 * w (k, q)`, which
  is the entry `(2000 t + p, q)` of the same expression over the whole array: the offset and the maximum act entry by
  entry, and a row of a matrix product depends on that row of the left factor only. The 50 blocks tile the 100000 rows
  (row `r` is in block `r / 2000`), so the array ends holding the whole-array expression.
-/
import proofs.«126352_j70978629534135_1_alg».proof.Proof.IdealFrame
import proofs.«126352_j70978629534135_1_alg».proof.Proof.Spec
import proofs.«126352_j70978629534135_1_alg».proof.Proof.LibPlainMatmul
import proofs.«126352_j70978629534135_1_alg».proof.Proof.LibPlainDot
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The one-row offset repeated down the 2000 rows of a block, at an entry: the offset's entry in that column. -/
theorem rowTile_apply (h : S1x128.Broadcasts S2000x128) (b : Vec Ideal S1x128 .f32) (p : Fin 2000) (k : Fin 128) :
    broadcastTo S2000x128 b h (ix2 p k) = b (ix2 0 k) :=
  broadcastTo_apply b h (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-- The one-row offset repeated down the 100000 rows of the array, at an entry: the offset's entry in that column. -/
theorem rowArr_apply (h : S1x128.BroadcastsInDim S100000x128 (![0, 1] : Fin 2 → Fin S100000x128.rank)) (b : FVec Ideal S1x128 .f32)
    (r : Fin 100000) (k : Fin 128) :
    broadcastInDim S100000x128 ![0, 1] h b (ix2 r k) = b (ix2 0 k) :=
  broadcastInDim_apply _ h b (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-- The zero array at an entry: the zero word's value. -/
theorem zeroArr_apply (h : S_.BroadcastsInDim S100000x128 (![] : Fin 0 → Fin S100000x128.rank)) (i : S100000x128.Idx) :
    broadcastInDim S100000x128 ![] h (constant (F := Ideal) S_ .f32 0x00000000#32) i = Ideal.ofBits .f32 0x00000000#32 :=
  broadcastInDim_apply _ h _ i (fun a => a.elim0) (fun a => a.elim0)

/-- The block's result at an entry: the offset and the maximum entry by entry, then the sum over the 128 shared indices. -/
theorem pay_apply (x0 : Vec Ideal S2000x128 .f32) (x1 : Vec Ideal S1x128 .f32) (x2 : Vec Ideal S128x128 .f32) (p : Fin 2000) (q : Fin 128) :
    k2_pay1 (F := Ideal) x0 x1 x2 (ix2 p q)
      = ∑ k : Fin 128, max (x0 (ix2 p k) + x1 (ix2 0 k)) (Ideal.ofBits .f32 0x00000000#32) * x2 (ix2 k q) := by
  unfold k2_pay1
  simp only [shapeCast_self]
  refine (Cert.Lib.PlainMatmul.matmul_zero_apply (M := 2000) (K := 128) (N := 128) none _ _ p q).trans ?_
  refine Finset.sum_congr rfl fun k _ => ?_
  show max (x0 (ix2 p k) + broadcastTo S2000x128 x1 _ (ix2 p k)) (Ideal.ofBits .f32 0x00000000#32) * x2 (ix2 k q) = _
  rw [rowTile_apply]

/-- The whole-array expression at an entry: the same, over the whole array's row. -/
theorem spec_apply (A : FVec Ideal S100000x128 .f32) (br : FVec Ideal S1x128 .f32) (w : FVec Ideal S128x128 .f32) (r : Fin 100000) (q : Fin 128) :
    Cert.Spec.finTransform (F := Ideal) A br w (ix2 r q)
      = ∑ k : Fin 128, max (A (ix2 r k) + br (ix2 0 k)) (Ideal.ofBits .f32 0x00000000#32) * w (ix2 k q) := by
  unfold Cert.Spec.finTransform
  refine (Cert.Lib.PlainDot.dotGeneral_apply (M := 100000) (K := 128) (N := 128) none _ w r q).trans ?_
  refine Finset.sum_congr rfl fun k _ => ?_
  show max (A (ix2 r k) + broadcastInDim S100000x128 ![0, 1] _ br (ix2 r k))
      (broadcastInDim S100000x128 ![] _ (constant (F := Ideal) S_ .f32 0x00000000#32) (ix2 r k)) * w (ix2 k q) = _
  rw [rowArr_apply, zeroArr_apply]

/-- The printed index maps over the grid: the summed messages' and the result's block index is the point's number on the
    rows and 0 on the columns; the offset's and the weight's are 0 on both. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the summed messages' block at point `t` is row `2000 t + p` of the array. -/
theorem blk0_apply (c : Dev nD) (t : Fin cfg2.N) (p : Fin 2000) (k : Fin 128) (h : 2000 * t.val + p.val < 100000) :
    iblk2 V c 0 t (ix2 p k) = V c main_v19 (ix2 ⟨2000 * t.val + p.val, h⟩ k) := by
  obtain ⟨e0, e1, -, -, -, -, -, -⟩ := idx_facts t
  show V c main_v19 (((cfg2.win 0).blk t).view.emb (ix2 p k)) = _
  refine congrArg (V c main_v19) ?_
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

/-- The offset's block at every point is the whole offset. -/
theorem blk1_apply (c : Dev nD) (t : Fin cfg2.N) (k : Fin 128) :
    iblk2 V c 1 t (ix2 0 k) = V c main_v24 (ix2 0 k) := by
  obtain ⟨-, -, e2, e3, -, -, -, -⟩ := idx_facts t
  show V c main_v24 (((cfg2.win 1).blk t).view.emb (ix2 0 k)) = _
  refine congrArg (V c main_v24) ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- The weight's block at every point is the whole weight. -/
theorem blk2_apply (c : Dev nD) (t : Fin cfg2.N) (k : Fin 128) (q : Fin 128) :
    iblk2 V c 2 t (ix2 k q) = V c main_v23 (ix2 k q) := by
  obtain ⟨-, -, -, -, e4, e5, -, -⟩ := idx_facts t
  show V c main_v23 (((cfg2.win 2).blk t).view.emb (ix2 k q)) = _
  refine congrArg (V c main_v23) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- An entry of the result's block at point `t` sits at row `2000 t + p` of the array. -/
theorem emb3_apply (t : Fin cfg2.N) (p : Fin 2000) (q : Fin 128) (h : 2000 * t.val + p.val < 100000) :
    ((cfg2.win 3).blk t).view.emb (ix2 p q) = (ix2 ⟨2000 * t.val + p.val, h⟩ q : S100000x128.Idx) := by
  obtain ⟨-, -, -, -, -, -, e6, e7⟩ := idx_facts t
  funext a; apply Fin.ext
  match a with
  | ⟨0, _⟩ => show win2_3.index t (0 : Fin 2) * 2000 + 1 * p.val = 2000 * t.val + p.val; omega
  | ⟨1, _⟩ => show win2_3.index t (1 : Fin 2) * 128 + 1 * q.val = q.val; omega

/-- WHAT POINT `t` WRITES BACK is block `t` of the whole-array expression. -/
theorem flushed_eq (c : Dev nD) (t : Fin cfg2.N) :
    (dat2 V c).flushed 3 t
      = ((cfg2.win 3).blk t).view.read (Elt Ideal) (Cert.Spec.finTransform (V c main_v19) (V c main_v24) (V c main_v23)) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have h : 2000 * t.val + p.val < 100000 := by omega
  show k2_pay1 (iblk2 V c 0 t) (iblk2 V c 1 t) (iblk2 V c 2 t) (ix2 p q)
    = Cert.Spec.finTransform (V c main_v19) (V c main_v24) (V c main_v23) (((cfg2.win 3).blk t).view.emb (ix2 p q))
  rw [emb3_apply t p q h]
  refine (pay_apply (iblk2 V c 0 t) (iblk2 V c 1 t) (iblk2 V c 2 t) p q).trans ?_
  refine Eq.trans ?_ (spec_apply (V c main_v19) (V c main_v24) (V c main_v23) ⟨2000 * t.val + p.val, h⟩ q).symm
  refine Finset.sum_congr rfl fun k _ => ?_
  rw [blk0_apply V c t p k h, blk1_apply V c t k, blk2_apply V c t k q]

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v25).slice (win2_3.rect t)).set ↔ _
  rw [View.set_slice_whole, Rect.mem_set_unit]
  exact Iff.rfl

/-- The blocks tile the array: row `r` lies in the block of point `r / 2000`. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hq : (i 0).val / 2000 < 50 := by omega
  refine ⟨⟨(i 0).val / 2000, hq⟩, flush2_3 _, ?_⟩
  obtain ⟨-, -, -, -, -, -, e6, e7⟩ := idx_facts ⟨(i 0).val / 2000, hq⟩
  rw [mem_blk]
  intro a
  match a with
  | ⟨0, _⟩ =>
    show win2_3.index ⟨(i 0).val / 2000, hq⟩ (0 : Fin 2) * 2000 ≤ (i 0).val ∧ (i 0).val < win2_3.index ⟨(i 0).val / 2000, hq⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, hq⟩ (1 : Fin 2) * 128 ≤ (i 1).val ∧ (i 1).val < win2_3.index ⟨(i 0).val / 2000, hq⟩ (1 : Fin 2) * 128 + 128
    rw [e7]; omega

/-- THE ARRAY after the region: the closed round's rectified sum, transformed. -/
theorem out (c : Dev nD) : (dat2 V c).arrAt 3 cfg2.N
    = Cert.Spec.finTransform (V c main_v19) (V c main_v24) (V c main_v23) :=
  (dat2 V c).arrAt_eq_of_cover 3 _ (fun t _ => flushed_eq V c t) cover

end Cert.KernelIdeal.Region2

end
-- ==== Proof.Region3.lean ====
/-
  Region 3: the close of round 1 of the message passing and the dense transform of round 2. The array its write-backs leave is `max (agg + b) 0 · w`.

  The grid has 50 points; point `t` reads rows `2000 t … 2000 t + 1999` of the summed messages `agg` (a 2000×128 block), the
  whole one-row offset `b` and the whole 128×128 weight `w`; it adds the offset to every row, takes the maximum with zero,
  multiplies by the weight into the zero accumulator, and writes the product back as block `t` of the result. Over the
  extended reals the entry `(p, q)` of the block's result is `∑ k, max (agg (2000 t + p, k) + b (0, k)) 0 * w (k, q)`, which
  is the entry `(2000 t + p, q)` of the same expression over the whole array: the offset and the maximum act entry by
  entry, and a row of a matrix product depends on that row of the left factor only. The 50 blocks tile the 100000 rows
  (row `r` is in block `r / 2000`), so the array ends holding the whole-array expression.
-/
import proofs.«126352_j70978629534135_1_alg».proof.Proof.IdealFrame
import proofs.«126352_j70978629534135_1_alg».proof.Proof.Spec
import proofs.«126352_j70978629534135_1_alg».proof.Proof.LibPlainMatmul
import proofs.«126352_j70978629534135_1_alg».proof.Proof.LibPlainDot
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The one-row offset repeated down the 2000 rows of a block, at an entry: the offset's entry in that column. -/
theorem rowTile_apply (h : S1x128.Broadcasts S2000x128) (b : Vec Ideal S1x128 .f32) (p : Fin 2000) (k : Fin 128) :
    broadcastTo S2000x128 b h (ix2 p k) = b (ix2 0 k) :=
  broadcastTo_apply b h (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-- The one-row offset repeated down the 100000 rows of the array, at an entry: the offset's entry in that column. -/
theorem rowArr_apply (h : S1x128.BroadcastsInDim S100000x128 (![0, 1] : Fin 2 → Fin S100000x128.rank)) (b : FVec Ideal S1x128 .f32)
    (r : Fin 100000) (k : Fin 128) :
    broadcastInDim S100000x128 ![0, 1] h b (ix2 r k) = b (ix2 0 k) :=
  broadcastInDim_apply _ h b (ix2 r k) (ix2 0 k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-- The zero array at an entry: the zero word's value. -/
theorem zeroArr_apply (h : S_.BroadcastsInDim S100000x128 (![] : Fin 0 → Fin S100000x128.rank)) (i : S100000x128.Idx) :
    broadcastInDim S100000x128 ![] h (constant (F := Ideal) S_ .f32 0x00000000#32) i = Ideal.ofBits .f32 0x00000000#32 :=
  broadcastInDim_apply _ h _ i (fun a => a.elim0) (fun a => a.elim0)

/-- The block's result at an entry: the offset and the maximum entry by entry, then the sum over the 128 shared indices. -/
theorem pay_apply (x0 : Vec Ideal S2000x128 .f32) (x1 : Vec Ideal S1x128 .f32) (x2 : Vec Ideal S128x128 .f32) (p : Fin 2000) (q : Fin 128) :
    k3_pay1 (F := Ideal) x0 x1 x2 (ix2 p q)
      = ∑ k : Fin 128, max (x0 (ix2 p k) + x1 (ix2 0 k)) (Ideal.ofBits .f32 0x00000000#32) * x2 (ix2 k q) := by
  unfold k3_pay1
  simp only [shapeCast_self]
  refine (Cert.Lib.PlainMatmul.matmul_zero_apply (M := 2000) (K := 128) (N := 128) none _ _ p q).trans ?_
  refine Finset.sum_congr rfl fun k _ => ?_
  show max (x0 (ix2 p k) + broadcastTo S2000x128 x1 _ (ix2 p k)) (Ideal.ofBits .f32 0x00000000#32) * x2 (ix2 k q) = _
  rw [rowTile_apply]

/-- The whole-array expression at an entry: the same, over the whole array's row. -/
theorem spec_apply (A : FVec Ideal S100000x128 .f32) (br : FVec Ideal S1x128 .f32) (w : FVec Ideal S128x128 .f32) (r : Fin 100000) (q : Fin 128) :
    Cert.Spec.finTransform (F := Ideal) A br w (ix2 r q)
      = ∑ k : Fin 128, max (A (ix2 r k) + br (ix2 0 k)) (Ideal.ofBits .f32 0x00000000#32) * w (ix2 k q) := by
  unfold Cert.Spec.finTransform
  refine (Cert.Lib.PlainDot.dotGeneral_apply (M := 100000) (K := 128) (N := 128) none _ w r q).trans ?_
  refine Finset.sum_congr rfl fun k _ => ?_
  show max (A (ix2 r k) + broadcastInDim S100000x128 ![0, 1] _ br (ix2 r k))
      (broadcastInDim S100000x128 ![] _ (constant (F := Ideal) S_ .f32 0x00000000#32) (ix2 r k)) * w (ix2 k q) = _
  rw [rowArr_apply, zeroArr_apply]

/-- The printed index maps over the grid: the summed messages' and the result's block index is the point's number on the
    rows and 0 on the columns; the offset's and the weight's are 0 on both. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the summed messages' block at point `t` is row `2000 t + p` of the array. -/
theorem blk0_apply (c : Dev nD) (t : Fin cfg3.N) (p : Fin 2000) (k : Fin 128) (h : 2000 * t.val + p.val < 100000) :
    iblk3 V c 0 t (ix2 p k) = V c main_v35 (ix2 ⟨2000 * t.val + p.val, h⟩ k) := by
  obtain ⟨e0, e1, -, -, -, -, -, -⟩ := idx_facts t
  show V c main_v35 (((cfg3.win 0).blk t).view.emb (ix2 p k)) = _
  refine congrArg (V c main_v35) ?_
  funext a; apply Fin.ext
  match a with
  | ⟨0, _⟩ => show win3_0.index t (0 : Fin 2) * 2000 + 1 * p.val = 2000 * t.val + p.val; omega
  | ⟨1, _⟩ => show win3_0.index t (1 : Fin 2) * 128 + 1 * k.val = k.val; omega

/-- The offset's block at every point is the whole offset. -/
theorem blk1_apply (c : Dev nD) (t : Fin cfg3.N) (k : Fin 128) :
    iblk3 V c 1 t (ix2 0 k) = V c main_v40 (ix2 0 k) := by
  obtain ⟨-, -, e2, e3, -, -, -, -⟩ := idx_facts t
  show V c main_v40 (((cfg3.win 1).blk t).view.emb (ix2 0 k)) = _
  refine congrArg (V c main_v40) ?_
  funext a; apply Fin.ext
  match a with
  | ⟨0, _⟩ => show win3_1.index t (0 : Fin 2) * 1 + 1 * 0 = 0; omega
  | ⟨1, _⟩ => show win3_1.index t (1 : Fin 2) * 128 + 1 * k.val = k.val; omega

/-- The weight's block at every point is the whole weight. -/
theorem blk2_apply (c : Dev nD) (t : Fin cfg3.N) (k : Fin 128) (q : Fin 128) :
    iblk3 V c 2 t (ix2 k q) = V c main_v39 (ix2 k q) := by
  obtain ⟨-, -, -, -, e4, e5, -, -⟩ := idx_facts t
  show V c main_v39 (((cfg3.win 2).blk t).view.emb (ix2 k q)) = _
  refine congrArg (V c main_v39) ?_
  funext a; apply Fin.ext
  match a with
  | ⟨0, _⟩ => show win3_2.index t (0 : Fin 2) * 128 + 1 * k.val = k.val; omega
  | ⟨1, _⟩ => show win3_2.index t (1 : Fin 2) * 128 + 1 * q.val = q.val; omega

/-- An entry of the result's block at point `t` sits at row `2000 t + p` of the array. -/
theorem emb3_apply (t : Fin cfg3.N) (p : Fin 2000) (q : Fin 128) (h : 2000 * t.val + p.val < 100000) :
    ((cfg3.win 3).blk t).view.emb (ix2 p q) = (ix2 ⟨2000 * t.val + p.val, h⟩ q : S100000x128.Idx) := by
  obtain ⟨-, -, -, -, -, -, e6, e7⟩ := idx_facts t
  funext a; apply Fin.ext
  match a with
  | ⟨0, _⟩ => show win3_3.index t (0 : Fin 2) * 2000 + 1 * p.val = 2000 * t.val + p.val; omega
  | ⟨1, _⟩ => show win3_3.index t (1 : Fin 2) * 128 + 1 * q.val = q.val; omega

/-- WHAT POINT `t` WRITES BACK is block `t` of the whole-array expression. -/
theorem flushed_eq (c : Dev nD) (t : Fin cfg3.N) :
    (dat3 V c).flushed 3 t
      = ((cfg3.win 3).blk t).view.read (Elt Ideal) (Cert.Spec.finTransform (V c main_v35) (V c main_v40) (V c main_v39)) := by
  show (cfg3.win 3).cut (grid3.coords t) ((dat3 V c).after 3 t) = _
  rw [after3_3]
  unfold out3_3
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 50 := t.isLt
  have hp : p.val < 2000 := p.isLt
  have h : 2000 * t.val + p.val < 100000 := by omega
  show k3_pay1 (iblk3 V c 0 t) (iblk3 V c 1 t) (iblk3 V c 2 t) (ix2 p q)
    = Cert.Spec.finTransform (V c main_v35) (V c main_v40) (V c main_v39) (((cfg3.win 3).blk t).view.emb (ix2 p q))
  rw [emb3_apply t p q h]
  refine (pay_apply (iblk3 V c 0 t) (iblk3 V c 1 t) (iblk3 V c 2 t) p q).trans ?_
  refine Eq.trans ?_ (spec_apply (V c main_v35) (V c main_v40) (V c main_v39) ⟨2000 * t.val + p.val, h⟩ q).symm
  refine Finset.sum_congr rfl fun k _ => ?_
  rw [blk0_apply V c t p k h, blk1_apply V c t k, blk2_apply V c t k q]

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v41).slice (win3_3.rect t)).set ↔ _
  rw [View.set_slice_whole, Rect.mem_set_unit]
  exact Iff.rfl

/-- The blocks tile the array: row `r` lies in the block of point `r / 2000`. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hq : (i 0).val / 2000 < 50 := by omega
  refine ⟨⟨(i 0).val / 2000, hq⟩, flush3_3 _, ?_⟩
  obtain ⟨-, -, -, -, -, -, e6, e7⟩ := idx_facts ⟨(i 0).val / 2000, hq⟩
  rw [mem_blk]
  intro a
  match a with
  | ⟨0, _⟩ =>
    show win3_3.index ⟨(i 0).val / 2000, hq⟩ (0 : Fin 2) * 2000 ≤ (i 0).val ∧ (i 0).val < win3_3.index ⟨(i 0).val / 2000, hq⟩ (0 : Fin 2) * 2000 + 2000
    rw [e6]; show (i 0).val / 2000 * 2000 ≤ (i 0).val ∧ (i 0).val < (i 0).val / 2000 * 2000 + 2000; omega
  | ⟨1, _⟩ =>
    show win3_3.index ⟨(i 0).val / 2000, hq⟩ (1 : Fin 2) * 128 ≤ (i 1).val ∧ (i 1).val < win3_3.index ⟨(i 0).val / 2000, hq⟩ (1 : Fin 2) * 128 + 128
    rw [e7]; omega

/-- THE ARRAY after the region: the closed round's rectified sum, transformed. -/
theorem out (c : Dev nD) : (dat3 V c).arrAt 3 cfg3.N
    = Cert.Spec.finTransform (V c main_v35) (V c main_v40) (V c main_v39) :=
  (dat3 V c).arrAt_eq_of_cover 3 _ (fun t _ => flushed_eq V c t) cover

end Cert.KernelIdeal.Region3

end
-- ==== Proof.LibColumns.lean ====
/-
  Column forms of the layout operations, read at an index written by coordinates.

  A vector of `a` numbers is kept as a column `[a, 1]`, as a block `[1, a, 1]`, or flat `[a]`; a shape cast between these
  keeps the row-major position, which is the one coordinate `i` in every form. A column broadcast to `[a, b]` reads, at
  `(i, j)`, the column's entry `i`. The extents are arbitrary; every index is built by `ix1`, `ix2`, `ix3`.
-/
import Idealize.ShloMosaic.Lib.ValueIdx
import Idealize.ShloMosaic.Lib.Pipeline.Value

noncomputable section

namespace Cert.Lib.Columns

open Idealize.ShloMosaic Idealize.ShloMosaic.ValueIdx

variable {α : Type}

/-- `[1, a, 1]` cast to `[a]`: at `i` the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    omega)

/-- `[a]` cast to `[1, a, 1]`: at `(u, i, v)` the operand at `i`. -/
theorem shapeCast_a_1a1_apply {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv]
    omega)

/-- `[a]` cast to the column `[a, 1]`: at `(i, u)` the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]`: at `(i, j)` the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.Columns

end
-- ==== Proof.Region4.lean ====
/-
  Region 4, the close of the last round, the decoder and the log-softmax: the array its write-backs leave is the row-wise
  log-softmax of the decoder's logits.

  The grid has 50 points; point `t` reads rows `2000 t … 2000 t + 1999` of the aggregated features (a 2000×128 block) and
  the five small arrays whole: an offset row, a 128×128 weight, an offset row, a 128×40 weight, an offset row. Per row
  `a` of the block it computes the logits `z = max (max (a + gb) 0 · w1 + b1) 0 · w2 + b2` (two plain matrix products into
  the zero accumulator; over the extended reals an entry of a product is the exact sum over the 128 shared indices),
  then with `M` the fold of `max` over the row's 40 logits from the bottom element, `s = z - M`, and the result
  `s - log (∑ exp s)`, and writes the 2000×40 block back as block `t` of the result.

  Every step acts on one row at a time, so entry `(p, q)` of the block's result is a function (`rowLsm` of `rowLogits`)
  of row `p` of the block and of the small arrays only. The stage functions compute, with the host's operations on the
  whole 100000-row arrays, the same function of row `r` at entry `(r, q)`: the host's products are the same exact sums,
  its row maximum is the same fold (followed by one more `max` against the bottom element, which changes nothing), its
  row sum starts from zero. Row `p` of block `t` is row `2000 t + p` of the array, the small arrays' blocks are the arrays
  themselves, and the 50 blocks tile the 100000 rows (row `r` is in block `r / 2000`); so the array ends holding the
  log-softmax of the logits of the whole arrays.
-/
import proofs.«126352_j70978629534135_1_alg».proof.Proof.IdealFrame
import proofs.«126352_j70978629534135_1_alg».proof.Proof.Spec
import proofs.«126352_j70978629534135_1_alg».proof.Proof.LibPlainMatmul
import proofs.«126352_j70978629534135_1_alg».proof.Proof.LibPlainDot
import Idealize.ShloMosaic.Lib.Pipeline.Value
import Idealize.ShloMosaic.Lib.ValueIdx
import proofs.«126352_j70978629534135_1_alg».proof.Proof.LibColumns
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (V : (c : Dev nD) → (b : Ref sig .tc) → Buf (Elt Ideal) ((c : Thread nD τ).loc b))

/-- One row's logits. -/
def rowLogits (a gb : Fin 128 → EReal) (w1 : Fin 128 → Fin 128 → EReal) (b1 : Fin 128 → EReal)
    (w2 : Fin 128 → Fin 40 → EReal) (b2 : Fin 40 → EReal) (q : Fin 40) : EReal :=
  (∑ k : Fin 128, max ((∑ k' : Fin 128, max (a k' + gb k') 0 * w1 k' k) + b1 k) 0 * w2 k q) + b2 q

/-- A row's maximum, from the value of the -inf word. -/
def rowMax (z : Fin 40 → EReal) : EReal := (Finset.univ : Finset (Fin 40)).fold max (Ideal.ofBits .f32 0xFF800000#32) z

/-- One row's log-softmax. -/
def rowLsm (z : Fin 40 → EReal) (q : Fin 40) : EReal :=
  (z q - rowMax z) - Ideal.log (∑ q' : Fin 40, Ideal.exp (z q' - rowMax z))

/-- The body's logits, as the body computes them. -/
def kz (x0 : Vec Ideal S2000x128 .f32) (x1 : Vec Ideal S1x128 .f32) (x2 : Vec Ideal S128x128 .f32) (x3 : Vec Ideal S1x128 .f32)
    (x4 : Vec Ideal S128x40 .f32) (x5 : Vec Ideal S1x40 .f32) : FVec Ideal S2000x40 .f32 :=
  addf (matmul dot_S2000x128_S128x40_S2000x40_1_0_0_1_n_n none
      (truncf .bf16 (maximumf (addf (matmul dot_S2000x128_S128x128_S2000x128_1_0_0_1_n_n none
          (truncf .bf16 (maximumf (addf (shapeCast S2000x128 x0 shapeCasts_S2000x128_S2000x128)
              (broadcastTo S2000x128 (shapeCast S1x128 x1 shapeCasts_S1x128_S1x128) broadcasts_S1x128_S2000x128))
            (broadcast S2000x128 (Scalar.ofBits .f32 0x00000000#32))) bitsLt_bf16_f32)
          (truncf .bf16 x2 bitsLt_bf16_f32) (constant S2000x128 .f32 0x00000000#32))
        (broadcastTo S2000x128 (shapeCast S1x128 x3 shapeCasts_S1x128_S1x128) broadcasts_S1x128_S2000x128))
        (broadcast S2000x128 (Scalar.ofBits .f32 0x00000000#32))) bitsLt_bf16_f32)
      (truncf .bf16 x4 bitsLt_bf16_f32) (constant S2000x40 .f32 0x00000000#32))
    (broadcastTo S2000x40 (shapeCast S1x40 x5 shapeCasts_S1x40_S1x40) broadcasts_S1x40_S2000x40)

/-- The body's log-softmax of a block of logits, as the body computes it. -/
def ksoft (z : FVec Ideal S2000x40 .f32) : FVec Ideal S2000x40 .f32 :=
  subf (subf z (broadcastTo S2000x40 (shapeCast S2000x1 (multiReduction .maximumf [1] S2000 z 0xFF800000#32 reduces_S2000x40_S2000 (.inl rfl) rfl) shapeCasts_S2000_S2000x1) broadcasts_S2000x1_S2000x40))
    (broadcastTo S2000x40 (log (shapeCast S2000x1 (multiReduction .add [1] S2000
      (exp (subf z (broadcastTo S2000x40 (shapeCast S2000x1 (multiReduction .maximumf [1] S2000 z 0xFF800000#32 reduces_S2000x40_S2000 (.inl rfl) rfl) shapeCasts_S2000_S2000x1) broadcasts_S2000x1_S2000x40)))
      0x00000000#32 reduces_S2000x40_S2000 (.inl rfl) rfl) shapeCasts_S2000_S2000x1)) broadcasts_S2000x1_S2000x40)

/-- The payload is the body's log-softmax of the body's logits. -/
theorem pay_split (x0 : Vec Ideal S2000x128 .f32) (x1 : Vec Ideal S1x128 .f32) (x2 : Vec Ideal S128x128 .f32) (x3 : Vec Ideal S1x128 .f32)
    (x4 : Vec Ideal S128x40 .f32) (x5 : Vec Ideal S1x40 .f32) :
    k4_pay1 (F := Ideal) x0 x1 x2 x3 x4 x5 = ksoft (kz x0 x1 x2 x3 x4 x5) := rfl

/-- The reduced index with the column inserted, at any extents. -/
theorem lift_row {n m : Nat} (h : (⟨2, ![n, m]⟩ : Shape).Reduces [1] ⟨1, ![n]⟩) (r : Fin n) (k : Fin m) : h.lift (ix1 r) k = ix2 r k := by
  funext a; apply Fin.ext
  match a with
  | ⟨0, _⟩ => rfl
  | ⟨1, _⟩ => rfl

/-- The body's row maximum, repeated along the row, is the row's maximum. -/
theorem kmax_apply (z : FVec Ideal S2000x40 .f32) (p : Fin 2000) (q : Fin 40) :
    broadcastTo S2000x40 (shapeCast S2000x1 (multiReduction .maximumf [1] S2000 z 0xFF800000#32 reduces_S2000x40_S2000 (.inl rfl) rfl) shapeCasts_S2000_S2000x1) broadcasts_S2000x1_S2000x40 (ix2 p q)
      = rowMax (fun q' => z (ix2 p q')) := by
  refine (Cert.Lib.Columns.broadcastTo_a1_ab_apply _ broadcasts_S2000x1_S2000x40 p q).trans ?_
  refine (Cert.Lib.Columns.shapeCast_a_a1_apply _ shapeCasts_S2000_S2000x1 p (0 : Fin 1)).trans ?_
  refine (Ideal.multiReduction_maximumf_single z 0xFF800000#32 reduces_S2000x40_S2000 (.inl rfl) rfl (ix1 p)).trans ?_
  unfold rowMax
  refine congrArg (fun f : Fin 40 → EReal => (Finset.univ : Finset (Fin 40)).fold max (Ideal.ofBits .f32 0xFF800000#32) f) ?_
  funext (k : Fin 40)
  exact congrArg z (lift_row reduces_S2000x40_S2000 p k)

/-- The body's log-softmax at an entry: the row's log-softmax. -/
theorem ksoft_apply (z : FVec Ideal S2000x40 .f32) (p : Fin 2000) (q : Fin 40) :
    ksoft z (ix2 p q) = rowLsm (fun q' => z (ix2 p q')) q := by
  unfold ksoft rowLsm
  show (z (ix2 p q) - broadcastTo S2000x40 (shapeCast S2000x1 (multiReduction .maximumf [1] S2000 z 0xFF800000#32 reduces_S2000x40_S2000 (.inl rfl) rfl) shapeCasts_S2000_S2000x1) broadcasts_S2000x1_S2000x40 (ix2 p q))
      - broadcastTo S2000x40 (log (shapeCast S2000x1 (multiReduction .add [1] S2000
          (exp (subf z (broadcastTo S2000x40 (shapeCast S2000x1 (multiReduction .maximumf [1] S2000 z 0xFF800000#32 reduces_S2000x40_S2000 (.inl rfl) rfl) shapeCasts_S2000_S2000x1) broadcasts_S2000x1_S2000x40)))
          0x00000000#32 reduces_S2000x40_S2000 (.inl rfl) rfl) shapeCasts_S2000_S2000x1)) broadcasts_S2000x1_S2000x40 (ix2 p q) = _
  rw [kmax_apply z p q]
  refine congrArg (fun y : EReal => (z (ix2 p q) - rowMax (fun q' => z (ix2 p q'))) - y) ?_
  refine (Cert.Lib.Columns.broadcastTo_a1_ab_apply _ broadcasts_S2000x1_S2000x40 p q).trans ?_
  show Ideal.log (shapeCast S2000x1 (multiReduction .add [1] S2000
          (exp (subf z (broadcastTo S2000x40 (shapeCast S2000x1 (multiReduction .maximumf [1] S2000 z 0xFF800000#32 reduces_S2000x40_S2000 (.inl rfl) rfl) shapeCasts_S2000_S2000x1) broadcasts_S2000x1_S2000x40)))
          0x00000000#32 reduces_S2000x40_S2000 (.inl rfl) rfl) shapeCasts_S2000_S2000x1 (ix2 p (0 : Fin 1))) = _
  refine congrArg Ideal.log ?_
  refine (Cert.Lib.Columns.shapeCast_a_a1_apply _ shapeCasts_S2000_S2000x1 p (0 : Fin 1)).trans ?_
  refine (Ideal.multiReduction_add_single _ 0x00000000#32 reduces_S2000x40_S2000 (.inl rfl) rfl (ix1 p)).trans ?_
  refine Finset.sum_congr rfl fun (k : Fin 40) _ => ?_
  have e := lift_row reduces_S2000x40_S2000 p k
  rw [e]
  show Ideal.exp (z (ix2 p k) - broadcastTo S2000x40 (shapeCast S2000x1 (multiReduction .maximumf [1] S2000 z 0xFF800000#32 reduces_S2000x40_S2000 (.inl rfl) rfl) shapeCasts_S2000_S2000x1) broadcasts_S2000x1_S2000x40 (ix2 p k)) = _
  rw [kmax_apply z p k]

/-- A block plus a repeated one-row offset, rectified, at an entry. -/
theorem relu_off_apply {n m : Nat} (A : FVec Ideal ⟨2, ![n, m]⟩ .f32) (b : FVec Ideal ⟨2, ![1, m]⟩ .f32)
    (h : (⟨2, ![1, m]⟩ : Shape).Broadcasts ⟨2, ![n, m]⟩) (p : Fin n) (k : Fin m) :
    maximumf (addf A (broadcastTo ⟨2, ![n, m]⟩ b h)) (broadcast ⟨2, ![n, m]⟩ (Scalar.ofBits .f32 0x00000000#32)) (ix2 p k)
      = max (A (ix2 p k) + b (ix2 (0 : Fin 1) k)) 0 := by
  show max (A (ix2 p k) + broadcastTo ⟨2, ![n, m]⟩ b h (ix2 p k)) (Ideal.ofBits .f32 0x00000000#32) = _
  rw [Ideal.ofBits_zero_f32, broadcastTo_1b_ab_apply]

/-- The body's logits at an entry: the row's logits. -/
theorem kz_apply (x0 : Vec Ideal S2000x128 .f32) (x1 : Vec Ideal S1x128 .f32) (x2 : Vec Ideal S128x128 .f32) (x3 : Vec Ideal S1x128 .f32)
    (x4 : Vec Ideal S128x40 .f32) (x5 : Vec Ideal S1x40 .f32) (p : Fin 2000) (q : Fin 40) :
    kz x0 x1 x2 x3 x4 x5 (ix2 p q)
      = rowLogits (fun k => x0 (ix2 p k)) (fun k => x1 (ix2 (0 : Fin 1) k)) (fun k k' => x2 (ix2 k k')) (fun k => x3 (ix2 (0 : Fin 1) k))
          (fun k q' => x4 (ix2 k q')) (fun q' => x5 (ix2 (0 : Fin 1) q')) q := by
  unfold kz rowLogits
  simp only [shapeCast_self]
  rw [addf_apply, broadcastTo_1b_ab_apply]
  refine congrArg (fun y : EReal => y + x5 (ix2 (0 : Fin 1) q)) ?_
  refine (Cert.Lib.PlainMatmul.matmul_zero_apply (M := 2000) (K := 128) (N := 40) none _ _ p q).trans ?_
  refine Finset.sum_congr rfl fun k _ => ?_
  refine congrArg (fun y : EReal => y * x4 (ix2 k q)) ?_
  refine (relu_off_apply _ x3 broadcasts_S1x128_S2000x128 p k).trans ?_
  refine congrArg (fun y : EReal => max (y + x3 (ix2 (0 : Fin 1) k)) 0) ?_
  refine (Cert.Lib.PlainMatmul.matmul_zero_apply (M := 2000) (K := 128) (N := 128) none _ _ p k).trans ?_
  refine Finset.sum_congr rfl fun k' _ => ?_
  refine congrArg (fun y : EReal => y * x2 (ix2 k' k)) ?_
  exact relu_off_apply x0 x1 broadcasts_S1x128_S2000x128 p k'

/-- The tile's payload at an entry: the log-softmax of the row's logits. -/
theorem pay_apply (x0 : Vec Ideal S2000x128 .f32) (x1 : Vec Ideal S1x128 .f32) (x2 : Vec Ideal S128x128 .f32) (x3 : Vec Ideal S1x128 .f32)
    (x4 : Vec Ideal S128x40 .f32) (x5 : Vec Ideal S1x40 .f32) (p : Fin 2000) (q : Fin 40) :
    k4_pay1 (F := Ideal) x0 x1 x2 x3 x4 x5 (ix2 p q)
      = rowLsm (rowLogits (fun k => x0 (ix2 p k)) (fun k => x1 (ix2 (0 : Fin 1) k)) (fun k k' => x2 (ix2 k k')) (fun k => x3 (ix2 (0 : Fin 1) k))
          (fun k q' => x4 (ix2 k q')) (fun q' => x5 (ix2 (0 : Fin 1) q'))) q := by
  rw [pay_split, ksoft_apply]
  refine congrArg (fun f : Fin 40 → EReal => rowLsm f q) ?_
  funext q'
  exact kz_apply x0 x1 x2 x3 x4 x5 p q'

/-- The -inf word is the bottom of the extended reals. -/
theorem ofBits_ninf : Ideal.ofBits .f32 0xFF800000#32 = ⊥ := by simp [Ideal.ofBits, Ideal.ieee]

/-- A one-row array repeated down the rows by `broadcast_in_dim`, at an entry. -/
theorem bcastRow_apply {n m : Nat} (b : FVec Ideal ⟨2, ![1, m]⟩ .f32)
    (h : (⟨2, ![1, m]⟩ : Shape).BroadcastsInDim ⟨2, ![n, m]⟩ (![0, 1] : Fin 2 → Fin 2)) (r : Fin n) (k : Fin m) :
    broadcastInDim ⟨2, ![n, m]⟩ (![0, 1] : Fin 2 → Fin 2) h b (ix2 r k) = b (ix2 (0 : Fin 1) k) := by
  refine broadcastInDim_apply _ h b (ix2 r k) (ix2 (0 : Fin 1) k) fun ax => ?_
  match ax with
  | ⟨0, _⟩ => rfl
  | ⟨1, _⟩ =>
    show k.val = if m = 1 then 0 else k.val
    split
    · have := k.isLt; omega
    · rfl

/-- A column repeated along the rows by `broadcast_in_dim`, at an entry. -/
theorem bcastCol_apply {n m : Nat} (v : FVec Ideal ⟨2, ![n, 1]⟩ .f32)
    (h : (⟨2, ![n, 1]⟩ : Shape).BroadcastsInDim ⟨2, ![n, m]⟩ (![0, 1] : Fin 2 → Fin 2)) (r : Fin n) (k : Fin m) :
    broadcastInDim ⟨2, ![n, m]⟩ (![0, 1] : Fin 2 → Fin 2) h v (ix2 r k) = v (ix2 r (0 : Fin 1)) := by
  refine broadcastInDim_apply _ h v (ix2 r k) (ix2 r (0 : Fin 1)) fun ax => ?_
  match ax with
  | ⟨0, _⟩ =>
    show r.val = if n = 1 then 0 else r.val
    split
    · have := r.isLt; omega
    · rfl
  | ⟨1, _⟩ => rfl

/-- A vector stood up as a column by `broadcast_in_dim`, at an entry. -/
theorem bcastStand_apply {n : Nat} (v : FVec Ideal ⟨1, ![n]⟩ .f32)
    (h : (⟨1, ![n]⟩ : Shape).BroadcastsInDim ⟨2, ![n, 1]⟩ (![0] : Fin 1 → Fin 2)) (r : Fin n) (u : Fin 1) :
    broadcastInDim ⟨2, ![n, 1]⟩ (![0] : Fin 1 → Fin 2) h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

/-- The host's form: an array plus a repeated one-row offset, rectified against the zero splat, at an entry. -/
theorem relu_off_host_apply {n m : Nat} (A : FVec Ideal ⟨2, ![n, m]⟩ .f32) (b : FVec Ideal ⟨2, ![1, m]⟩ .f32)
    (h : (⟨2, ![1, m]⟩ : Shape).BroadcastsInDim ⟨2, ![n, m]⟩ (![0, 1] : Fin 2 → Fin 2))
    (h0 : (⟨0, ![]⟩ : Shape).BroadcastsInDim ⟨2, ![n, m]⟩ (![] : Fin 0 → Fin 2)) (r : Fin n) (k : Fin m) :
    maximumf (addf A (broadcastInDim ⟨2, ![n, m]⟩ (![0, 1] : Fin 2 → Fin 2) h b))
        (broadcastInDim ⟨2, ![n, m]⟩ (![] : Fin 0 → Fin 2) h0 (constant (F := Ideal) ⟨0, ![]⟩ .f32 0x00000000#32)) (ix2 r k)
      = max (A (ix2 r k) + b (ix2 (0 : Fin 1) k)) 0 := by
  show max (A (ix2 r k) + broadcastInDim ⟨2, ![n, m]⟩ (![0, 1] : Fin 2 → Fin 2) h b (ix2 r k)) (Ideal.ofBits .f32 0x00000000#32) = _
  rw [Ideal.ofBits_zero_f32, bcastRow_apply]

/-- THE STAGE FUNCTION of the logits at an entry: the row's logits. -/
theorem logits_apply (A : FVec Ideal S100000x128 .f32) (gbr : FVec Ideal S1x128 .f32) (w1 : FVec Ideal S128x128 .f32) (b1r : FVec Ideal S1x128 .f32)
    (w2 : FVec Ideal S128x40 .f32) (b2r : FVec Ideal S1x40 .f32) (r : Fin 100000) (q : Fin 40) :
    Cert.Spec.logits (F := Ideal) A gbr w1 b1r w2 b2r (ix2 r q)
      = rowLogits (fun k => A (ix2 r k)) (fun k => gbr (ix2 (0 : Fin 1) k)) (fun k k' => w1 (ix2 k k')) (fun k => b1r (ix2 (0 : Fin 1) k))
          (fun k q' => w2 (ix2 k q')) (fun q' => b2r (ix2 (0 : Fin 1) q')) q := by
  unfold Cert.Spec.logits rowLogits
  rw [addf_apply]
  refine congrArg₂ (fun y y' : EReal => y + y') ?_ (bcastRow_apply b2r Cert.ReferenceIdeal.Facts₀.bcast_S1x40_S100000x40_0_1 r q)
  refine (Cert.Lib.PlainDot.dotGeneral_apply (M := 100000) (K := 128) (N := 40) none _ w2 r q).trans ?_
  refine Finset.sum_congr rfl fun k _ => ?_
  refine congrArg (fun y : EReal => y * w2 (ix2 k q)) ?_
  refine (relu_off_host_apply _ b1r Cert.ReferenceIdeal.Facts₀.bcast_S1x128_S100000x128_0_1 Cert.ReferenceIdeal.Facts₀.bcast_S_S100000x128 r k).trans ?_
  refine congrArg (fun y : EReal => max (y + b1r (ix2 (0 : Fin 1) k)) 0) ?_
  refine (Cert.Lib.PlainDot.dotGeneral_apply (M := 100000) (K := 128) (N := 128) none _ w1 r k).trans ?_
  refine Finset.sum_congr rfl fun k' _ => ?_
  refine congrArg (fun y : EReal => y * w1 (ix2 k' k)) ?_
  exact relu_off_host_apply A gbr Cert.ReferenceIdeal.Facts₀.bcast_S1x128_S100000x128_0_1 Cert.ReferenceIdeal.Facts₀.bcast_S_S100000x128 r k'

/-- The host's row maximum as an array: every row's maximum repeated along the row. -/
def hmax (z : FVec Ideal S100000x40 .f32) : FVec Ideal S100000x40 .f32 :=
  broadcastInDim Cert.ReferenceIdeal.S100000x40 ![0, 1] Cert.ReferenceIdeal.Gen.bcast_S100000x1_S100000x40_0_1
    (broadcastInDim Cert.ReferenceIdeal.S100000x1 ![0] Cert.ReferenceIdeal.Gen.bcast_S100000_S100000x1_0
      (maximumf (broadcastInDim Cert.ReferenceIdeal.S100000 ![] Cert.ReferenceIdeal.Gen.bcast_S_S100000 (constant (F := Ideal) Cert.ReferenceIdeal.S_ .f32 0xFF800000#32))
        (Host.reduce FloatOps.maximumf z (constant (F := Ideal) Cert.ReferenceIdeal.S_ .f32 0xFF800000#32)
          Cert.ReferenceIdeal.Gen.reducesTo_S100000x40_S100000_d1 Cert.ReferenceIdeal.Gen.h_S_)))

/-- The host's log-softmax in terms of its row maximum. -/
theorem lsm_split (z : FVec Ideal S100000x40 .f32) :
    Cert.Spec.logSoftmax (F := Ideal) z
      = subf (subf z (hmax z)) (broadcastInDim Cert.ReferenceIdeal.S100000x40 ![0, 1] Cert.ReferenceIdeal.Gen.bcast_S100000x1_S100000x40_0_1
          (Host.log (broadcastInDim Cert.ReferenceIdeal.S100000x1 ![0] Cert.ReferenceIdeal.Gen.bcast_S100000_S100000x1_0
            (Host.reduceAdd (Host.exp (subf z (hmax z))) (constant (F := Ideal) Cert.ReferenceIdeal.S_ .f32 0x00000000#32)
              Cert.ReferenceIdeal.Gen.reducesTo_S100000x40_S100000_d1 Cert.ReferenceIdeal.Gen.h_S_)))) := rfl

/-- Dropping the column axis of the 100000×40 array leaves its 100000 rows. -/
theorem reduces_rows : Cert.ReferenceIdeal.S100000x40.Reduces [1] Cert.ReferenceIdeal.S100000 := by decide

/-- A scalar constant repeated over any shape by `broadcast_in_dim`, at an index: the constant's value. -/
theorem bcastScalar_apply {t : Shape} (h0 : (⟨0, ![]⟩ : Shape).BroadcastsInDim t (![] : Fin 0 → Fin t.rank)) (w : BitVec 32) (i : t.Idx) :
    broadcastInDim t (![] : Fin 0 → Fin t.rank) h0 (constant (F := Ideal) ⟨0, ![]⟩ .f32 w) i = Ideal.ofBits .f32 w := rfl

/-- The maximum with an array that is bottom at an index is the other array there. -/
theorem max_bot_apply {t : Shape} (x y : FVec Ideal t .f32) (i : t.Idx) (hx : x i = ⊥) : maximumf x y i = y i := by
  show max (x i) (y i) = y i
  rw [hx, max_bot_left]

/-- Two subtractions in a row, at an index. -/
theorem sub_sub_apply {t : Shape} (x y w : FVec Ideal t .f32) (i : t.Idx) : subf (subf x y) w i = (x i - y i) - w i := rfl

/-- The host's logarithm acts entry by entry. -/
theorem hostLog_apply {t : Shape} (x : FVec Ideal t .f32) (i : t.Idx) : Host.log x i = Ideal.log (x i) := rfl

/-- The host's exponential acts entry by entry. -/
theorem hostExp_apply {t : Shape} (x : FVec Ideal t .f32) (i : t.Idx) : Host.exp x i = Ideal.exp (x i) := rfl

/-- The host's row maximum from any initial word: the fold of `max` over the row from that word's value. -/
theorem hostRowMax_apply (z : FVec Ideal S100000x40 .f32) (w : BitVec 32) (r : Fin 100000) :
    Host.reduce FloatOps.maximumf z (constant (F := Ideal) Cert.ReferenceIdeal.S_ .f32 w)
        Cert.ReferenceIdeal.Gen.reducesTo_S100000x40_S100000_d1 Cert.ReferenceIdeal.Gen.h_S_ (ix1 r)
      = (Finset.univ : Finset (Fin 40)).fold max (Ideal.ofBits .f32 w) (fun q' => z (ix2 r q')) := by
  refine (Host.reduce_eq_fold_single (FloatOps.maximumf (F := Ideal) (φ := .f32)) z _ Cert.ReferenceIdeal.Gen.reducesTo_S100000x40_S100000_d1 reduces_rows
    Cert.ReferenceIdeal.Gen.h_S_ (ix1 r)).trans ?_
  show (Finset.univ : Finset (Fin 40)).fold max (Ideal.ofBits .f32 w) (z ∘ reduces_rows.lift (ix1 r)) = _
  refine congrArg (fun f : Fin 40 → EReal => (Finset.univ : Finset (Fin 40)).fold max (Ideal.ofBits .f32 w) f) ?_
  funext (k : Fin 40)
  exact congrArg z (lift_row reduces_rows r k)

/-- The host's row sum from any initial word: that word's value plus the sum over the row. -/
theorem hostRowSum_apply (E : FVec Ideal S100000x40 .f32) (w : BitVec 32) (r : Fin 100000) :
    Host.reduceAdd E (constant (F := Ideal) Cert.ReferenceIdeal.S_ .f32 w)
        Cert.ReferenceIdeal.Gen.reducesTo_S100000x40_S100000_d1 Cert.ReferenceIdeal.Gen.h_S_ (ix1 r)
      = Ideal.ofBits .f32 w + ∑ k : Fin 40, E (ix2 r k) := by
  show Ideal.hostReduceAdd Cert.ReferenceIdeal.Gen.reducesTo_S100000x40_S100000_d1 E (Ideal.ofBits .f32 w) (ix1 r) = _
  rw [Ideal.hostReduceAdd_single Cert.ReferenceIdeal.Gen.reducesTo_S100000x40_S100000_d1 reduces_rows]
  refine congrArg (fun y : EReal => Ideal.ofBits .f32 w + y) ?_
  refine Finset.sum_congr rfl fun (k : Fin 40) _ => ?_
  exact congrArg E (lift_row reduces_rows r k)

/-- The host's row maximum at an entry: the fold of `max` over the row (one more `max` against the bottom changes nothing). -/
theorem hmax_apply (z : FVec Ideal S100000x40 .f32) (r : Fin 100000) (q : Fin 40) :
    hmax z (ix2 r q) = rowMax (fun q' => z (ix2 r q')) := by
  unfold hmax
  refine (bcastCol_apply _ Cert.ReferenceIdeal.Gen.bcast_S100000x1_S100000x40_0_1 r q).trans ?_
  refine (bcastStand_apply _ Cert.ReferenceIdeal.Gen.bcast_S100000_S100000x1_0 r (0 : Fin 1)).trans ?_
  refine (max_bot_apply _ _ (ix1 r) ((bcastScalar_apply _ _ (ix1 r)).trans ofBits_ninf)).trans ?_
  exact hostRowMax_apply z _ r

/-- THE STAGE FUNCTION of the log-softmax at an entry: the row's log-softmax. -/
theorem logSoftmax_apply (z : FVec Ideal S100000x40 .f32) (r : Fin 100000) (q : Fin 40) :
    Cert.Spec.logSoftmax (F := Ideal) z (ix2 r q) = rowLsm (fun q' => z (ix2 r q')) q := by
  refine (congrFun (lsm_split z) (ix2 r q)).trans ?_
  refine (sub_sub_apply z (hmax z) _ (ix2 r q)).trans ?_
  unfold rowLsm
  rw [hmax_apply z r q]
  refine congrArg (fun y : EReal => (z (ix2 r q) - rowMax (fun q' => z (ix2 r q'))) - y) ?_
  refine (bcastCol_apply _ Cert.ReferenceIdeal.Gen.bcast_S100000x1_S100000x40_0_1 r q).trans ?_
  refine (hostLog_apply _ (ix2 r (0 : Fin 1))).trans ?_
  refine congrArg Ideal.log ?_
  refine (bcastStand_apply _ Cert.ReferenceIdeal.Gen.bcast_S100000_S100000x1_0 r (0 : Fin 1)).trans ?_
  refine (hostRowSum_apply _ _ r).trans ?_
  rw [Ideal.ofBits_zero_f32, zero_add]
  refine Finset.sum_congr rfl fun (k : Fin 40) _ => ?_
  refine (hostExp_apply _ (ix2 r k)).trans ?_
  refine congrArg Ideal.exp ?_
  show z (ix2 r k) - hmax z (ix2 r k) = _
  rw [hmax_apply z r k]

/-- The zero offset, as a constant function. -/
theorem hz : (![0, 0] : Fin 2 → Nat) = fun _ => 0 := funext fun a => by fin_cases a <;> rfl

/-- The printed index maps over the grid: the first window's and the result's block index is the point's number on the
    rows and 0 on the columns; the five small arrays' is 0 on both. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row `p` of the first window's block at point `t` is row `2000 t + p` of the array. -/
theorem blk0_apply (c : Dev nD) (t : Fin cfg4.N) (p : Fin 2000) (k : Fin 128) (h : 2000 * t.val + p.val < 100000) :
    iblk4 V c 0 t (ix2 p k) = V c main_v51 (ix2 ⟨2000 * t.val + p.val, h⟩ k) := by
  obtain ⟨e0, e1, -⟩ := idx_facts t
  show V c main_v51 (((cfg4.win 0).blk t).view.emb (ix2 p k)) = _
  refine congrArg (V c main_v51) ?_
  funext a; apply Fin.ext
  match a with
  | ⟨0, _⟩ => show win4_0.index t (0 : Fin 2) * 2000 + 1 * p.val = 2000 * t.val + p.val; omega
  | ⟨1, _⟩ => show win4_0.index t (1 : Fin 2) * 128 + 1 * k.val = k.val; omega

/-- The first offset's block at every point is the whole one-row array. -/
theorem blk1_apply (c : Dev nD) (t : Fin cfg4.N) (u : Fin 1) (k : Fin 128) :
    iblk4 V c 1 t (ix2 u k) = V c main_v54 (ix2 u k) := by
  obtain ⟨-, -, e0, e1, -⟩ := idx_facts t
  show V c main_v54 (((cfg4.win 1).blk t).view.emb (ix2 u k)) = _
  refine congrArg (V c main_v54) ?_
  funext a; apply Fin.ext
  match a with
  | ⟨0, _⟩ => show win4_1.index t (0 : Fin 2) * 1 + 1 * u.val = u.val; omega
  | ⟨1, _⟩ => show win4_1.index t (1 : Fin 2) * 128 + 1 * k.val = k.val; omega

/-- The first weight's block at every point is the whole weight. -/
theorem blk2_apply (c : Dev nD) (t : Fin cfg4.N) (k : Fin 128) (k' : Fin 128) :
    iblk4 V c 2 t (ix2 k k') = V c main_arg8 (ix2 k k') := by
  obtain ⟨-, -, -, -, e0, e1, -⟩ := idx_facts t
  show V c main_arg8 (((cfg4.win 2).blk t).view.emb (ix2 k k')) = _
  refine congrArg (V c main_arg8) ?_
  funext a; apply Fin.ext
  match a with
  | ⟨0, _⟩ => show win4_2.index t (0 : Fin 2) * 128 + 1 * k.val = k.val; omega
  | ⟨1, _⟩ => show win4_2.index t (1 : Fin 2) * 128 + 1 * k'.val = k'.val; omega

/-- The second offset's block at every point is the whole one-row array. -/
theorem blk3_apply (c : Dev nD) (t : Fin cfg4.N) (u : Fin 1) (k : Fin 128) :
    iblk4 V c 3 t (ix2 u k) = V c main_v55 (ix2 u k) := by
  obtain ⟨-, -, -, -, -, -, e0, e1, -⟩ := idx_facts t
  show V c main_v55 (((cfg4.win 3).blk t).view.emb (ix2 u k)) = _
  refine congrArg (V c main_v55) ?_
  funext a; apply Fin.ext
  match a with
  | ⟨0, _⟩ => show win4_3.index t (0 : Fin 2) * 1 + 1 * u.val = u.val; omega
  | ⟨1, _⟩ => show win4_3.index t (1 : Fin 2) * 128 + 1 * k.val = k.val; omega

/-- The second weight's block at every point is the whole weight. -/
theorem blk4_apply (c : Dev nD) (t : Fin cfg4.N) (k : Fin 128) (q : Fin 40) :
    iblk4 V c 4 t (ix2 k q) = V c main_arg10 (ix2 k q) := by
  obtain ⟨-, -, -, -, -, -, -, -, e0, e1, -⟩ := idx_facts t
  show V c main_arg10 (((cfg4.win 4).blk t).view.emb (ix2 k q)) = _
  refine congrArg (V c main_arg10) ?_
  funext a; apply Fin.ext
  match a with
  | ⟨0, _⟩ => show win4_4.index t (0 : Fin 2) * 128 + 1 * k.val = k.val; omega
  | ⟨1, _⟩ => show win4_4.index t (1 : Fin 2) * 40 + 1 * q.val = q.val; omega

/-- The third offset's block at every point is the whole one-row array. -/
theorem blk5_apply (c : Dev nD) (t : Fin cfg4.N) (u : Fin 1) (q : Fin 40) :
    iblk4 V c 5 t (ix2 u q) = V c main_v56 (ix2 u q) := by
  obtain ⟨-, -, -, -, -, -, -, -, -, -, e0, e1, -⟩ := idx_facts t
  show V c main_v56 (((cfg4.win 5).blk t).view.emb (ix2 u q)) = _
  refine congrArg (V c main_v56) ?_
  funext a; apply Fin.ext
  match a with
  | ⟨0, _⟩ => show win4_5.index t (0 : Fin 2) * 1 + 1 * u.val = u.val; omega
  | ⟨1, _⟩ => show win4_5.index t (1 : Fin 2) * 40 + 1 * q.val = q.val; omega

/-- An entry of the result's block at point `t` sits at row `2000 t + p` of the array. -/
theorem emb6_apply (t : Fin cfg4.N) (p : Fin 2000) (q : Fin 40) (h : 2000 * t.val + p.val < 100000) :
    ((cfg4.win 6).blk t).view.emb (ix2 p q) = (ix2 ⟨2000 * t.val + p.val, h⟩ q : S100000x40.Idx) := by
  obtain ⟨-, -, -, -, -, -, -, -, -, -, -, -, e0, e1⟩ := idx_facts t
  funext a; apply Fin.ext
  match a with
  | ⟨0, _⟩ => show win4_6.index t (0 : Fin 2) * 2000 + 1 * p.val = 2000 * t.val + p.val; omega
  | ⟨1, _⟩ => show win4_6.index t (1 : Fin 2) * 40 + 1 * q.val = q.val; omega

/-- A row's logits depend on the row and the small arrays only through their entries. -/
theorem rowLogits_congr {a a' gb gb' : Fin 128 → EReal} {w1 w1' : Fin 128 → Fin 128 → EReal} {b1 b1' : Fin 128 → EReal}
    {w2 w2' : Fin 128 → Fin 40 → EReal} {b2 b2' : Fin 40 → EReal} (ha : a = a') (hgb : gb = gb') (hw1 : w1 = w1') (hb1 : b1 = b1')
    (hw2 : w2 = w2') (hb2 : b2 = b2') : rowLogits a gb w1 b1 w2 b2 = rowLogits a' gb' w1' b1' w2' b2' := by
  subst ha hgb hw1 hb1 hw2 hb2; rfl

/-- WHAT POINT `t` WRITES BACK is block `t` of the log-softmax of the logits of the whole arrays. -/
theorem flushed_eq (c : Dev nD) (t : Fin cfg4.N) :
    (dat4 V c).flushed 6 t = ((cfg4.win 6).blk t).view.read (Elt Ideal)
      (Cert.Spec.logSoftmax (Cert.Spec.logits (V c main_v51) (V c main_v54) (V c main_arg8) (V c main_v55) (V c main_arg10) (V c main_v56))) := by
  show (cfg4.win 6).cut (grid4.coords t) ((dat4 V c).after 6 t) = _
  rw [after4_6]
  unfold out4_6
  rw [View.canon_unit_zero hz]
  simp only [View.ld_unit_zero (S := S2000x128) hz, View.ld_unit_zero (S := S1x128) hz, View.ld_unit_zero (S := S128x128) hz,
    View.ld_unit_zero (S := S128x40) hz, View.ld_unit_zero (S := S1x40) hz]
  funext j
  obtain ⟨p, q, rfl⟩ : ∃ (p : Fin 2000) (q : Fin 40), j = ix2 p q := ⟨j 0, j 1, eq_ix2 j⟩
  have ht : t.val < 50 := t.isLt
  have hp : p.val < 2000 := p.isLt
  have h : 2000 * t.val + p.val < 100000 := by omega
  show k4_pay1 (iblk4 V c 0 t) (iblk4 V c 1 t) (iblk4 V c 2 t) (iblk4 V c 3 t) (iblk4 V c 4 t) (iblk4 V c 5 t) (ix2 p q)
    = Cert.Spec.logSoftmax (Cert.Spec.logits (V c main_v51) (V c main_v54) (V c main_arg8) (V c main_v55) (V c main_arg10) (V c main_v56))
        (((cfg4.win 6).blk t).view.emb (ix2 p q))
  rw [emb6_apply t p q h]
  refine (pay_apply (iblk4 V c 0 t) (iblk4 V c 1 t) (iblk4 V c 2 t) (iblk4 V c 3 t) (iblk4 V c 4 t) (iblk4 V c 5 t) p q).trans ?_
  refine Eq.trans ?_ (logSoftmax_apply _ ⟨2000 * t.val + p.val, h⟩ q).symm
  refine congrArg (fun f : Fin 40 → EReal => rowLsm f q) ?_
  funext q'
  refine Eq.trans ?_ (logits_apply (V c main_v51) (V c main_v54) (V c main_arg8) (V c main_v55) (V c main_arg10) (V c main_v56)
    ⟨2000 * t.val + p.val, h⟩ q').symm
  exact congrFun (rowLogits_congr (funext fun k => blk0_apply V c t p k h) (funext fun k => blk1_apply V c t 0 k)
    (funext fun k => funext fun k' => blk2_apply V c t k k') (funext fun k => blk3_apply V c t 0 k)
    (funext fun k => funext fun q'' => blk4_apply V c t k q'') (funext fun q'' => blk5_apply V c t 0 q'')) q'

/-- An index of the array is in point `t`'s block iff each coordinate is in the block's range on its axis. -/
theorem mem_blk (t : Fin cfg4.N) (i : S100000x40.Idx) :
    i ∈ ((cfg4.win 6).blk t).view.set ↔ ∀ a : Fin 2, win4_6.index t a * S2000x40.size a ≤ (i a).val ∧ (i a).val < win4_6.index t a * S2000x40.size a + S2000x40.size a := by
  show i ∈ ((View.whole main_v57).slice (win4_6.rect t)).set ↔ _
  rw [View.set_slice_whole, Rect.mem_set_unit]
  exact Iff.rfl

/-- The blocks tile the array: row `r` lies in the block of point `r / 2000`. -/
theorem cover (i : S100000x40.Idx) : ∃ t : Fin cfg4.N, (cfg4.win 6).flush t = true ∧ i ∈ ((cfg4.win 6).blk t).view.set := by
  have hi0 : (i 0).val < 100000 := (i 0).isLt
  have hi1 : (i 1).val < 40 := (i 1).isLt
  have hq : (i 0).val / 2000 < 50 := by omega
  refine ⟨⟨(i 0).val / 2000, hq⟩, flush4_6 _, ?_⟩
  obtain ⟨-, -, -, -, -, -, -, -, -, -, -, -, e0, e1⟩ := idx_facts ⟨(i 0).val / 2000, hq⟩
  rw [mem_blk]
  intro a
  match a with
  | ⟨0, _⟩ =>
    show win4_6.index ⟨(i 0).val / 2000, hq⟩ (0 : Fin 2) * 2000 ≤ (i 0).val ∧ (i 0).val < win4_6.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win4_6.index ⟨(i 0).val / 2000, hq⟩ (1 : Fin 2) * 40 ≤ (i 1).val ∧ (i 1).val < win4_6.index ⟨(i 0).val / 2000, hq⟩ (1 : Fin 2) * 40 + 40
    rw [e1]; omega

/-- THE ARRAY after the region: the row-wise log-softmax of the decoder's logits of the arrays the region found. -/
theorem out (c : Dev nD) : (dat4 V c).arrAt 6 cfg4.N
    = Cert.Spec.logSoftmax (Cert.Spec.logits (V c main_v51) (V c main_v54) (V c main_arg8) (V c main_v55) (V c main_arg10) (V c main_v56)) :=
  (dat4 V c).arrAt_eq_of_cover 6 _ (fun t _ => flushed_eq V c t) cover

end Cert.KernelIdeal.Region4

end
-- ==== Proof.Chain.lean ====
/-
  The idealized kernel's result buffer, read back through the run: the network of the twelve argument arrays.

  The program is five kernel regions among five stretches of host operations. The contents of the buffers at the eleven
  boundaries are a fold from the launch memory: a host stretch rewrites the buffers its operations write and keeps the rest; a
  region leaves in its result array the stage function of its entry arrays (the encoder; a dense transform; twice the close
  of a round with the next round's transform; the decoder's logits under the row-wise log-softmax) and keeps every buffer that
  is not one of its arrays. The host stretches cut the edge list into its two rows, pick a weight matrix or an offset row out
  of a stack, sum the transformed features along the edges, and turn an offset vector into a one-row array. They do the last by
  a reshape where the network's definition broadcasts the vector to one row: the same array, since at `(0, k)` both read entry
  `k` (`row_eq`). Walking the boundaries in order, each buffer still needed is named once by its closed form in the launch
  arrays, and the last region's result is the network unfolded.
-/
import proofs.«126352_j70978629534135_1_alg».proof.Proof.IdealFrame
import proofs.«126352_j70978629534135_1_alg».proof.Proof.Spec
import proofs.«126352_j70978629534135_1_alg».proof.Proof.Region0
import proofs.«126352_j70978629534135_1_alg».proof.Proof.Region1
import proofs.«126352_j70978629534135_1_alg».proof.Proof.Region2
import proofs.«126352_j70978629534135_1_alg».proof.Proof.Region3
import proofs.«126352_j70978629534135_1_alg».proof.Proof.Region4
import Idealize.ShloMosaic.Lib.Pipeline.Value
import Idealize.ShloMosaic.Lib.ValueIdx
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-! ## Equal arguments, equal values -/

theorem cong3 {α β γ δ : Type} (f : α → β → γ → δ) {a a' : α} {b b' : β} {c c' : γ} (ha : a = a') (hb : b = b') (hc : c = c') :
    f a b c = f a' b' c' := by subst ha hb hc; rfl
theorem cong5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl
theorem cong6 {α β γ δ ε ζ η : Type} (f : α → β → γ → δ → ε → ζ → η) {a a' : α} {b b' : β} {c c' : γ} {d d' : δ} {e e' : ε} {g g' : ζ}
    (ha : a = a') (hb : b = b') (hc : c = c') (hd : d = d') (he : e = e') (hg : g = g') : f a b c d e g = f a' b' c' d' e' g' := by
  subst ha hb hc hd he hg; rfl

/-! ## A vector as a one-row array -/

/-- A vector reshaped to one row is the vector broadcast to one row along the columns: at `(0, k)` both read entry `k`. -/
theorem row_eq {α : Type} {n : Nat} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨z, k, rfl⟩ : ∃ (z : Fin 1) (k : Fin n), i = ix2 z k := ⟨i 0, i 1, eq_ix2 i⟩
  have hz : z.val = 0 := by have := z.isLt; omega
  have e1 := shapeCast_apply b h (ix2 z k) (ix1 k) (by
    rw [Shape.rowMajor_val_two, Shape.rowMajor_val_one]; show k.val = z.val * n + k.val; rw [hz]; omega)
  have e2 := broadcastInDim_apply ![1] h' b (ix2 z k) (ix1 k) (by
    intro a
    match a with
    | ⟨0, _⟩ =>
      show k.val = if n = 1 then 0 else k.val
      split
      · have := k.isLt; omega
      · rfl)
  exact e1.trans e2.symm

/-! ## The host stretches, over any contents at their start -/

section Stretches
variable (W : Valuation τ sig (Elt Ideal))

/-! ### Stretch 0: the edge list's two rows and the encoder's two offsets as one-row arrays -/

theorem h0_v1 : StableHlo.after hostOps0 W (Proc.devRef .tc main_v1) = Cert.Spec.srcOf (W (Proc.devRef .tc main_arg1)) := by
  dsimp only [hostOps0]
  after_results_simp
  rfl
theorem h0_v3 : StableHlo.after hostOps0 W (Proc.devRef .tc main_v3) = Cert.Spec.dstOf (W (Proc.devRef .tc main_arg1)) := by
  dsimp only [hostOps0]
  after_results_simp
  rfl
theorem h0_v4 : StableHlo.after hostOps0 W (Proc.devRef .tc main_v4) = Cert.Spec.row256 (W (Proc.devRef .tc main_arg3)) := by
  dsimp only [hostOps0]
  after_results_simp
  exact row_eq (n := 256) _ _ _
theorem h0_v5 : StableHlo.after hostOps0 W (Proc.devRef .tc main_v5) = Cert.Spec.row128 (W (Proc.devRef .tc main_arg5)) := by
  dsimp only [hostOps0]
  after_results_simp
  exact row_eq (n := 128) _ _ _
theorem h0_keep_arg0 : StableHlo.after hostOps0 W (Proc.devRef .tc main_arg0) = W (Proc.devRef .tc main_arg0) := by
  dsimp only [hostOps0]
  after_results_simp
theorem h0_keep_arg2 : StableHlo.after hostOps0 W (Proc.devRef .tc main_arg2) = W (Proc.devRef .tc main_arg2) := by
  dsimp only [hostOps0]
  after_results_simp
theorem h0_keep_arg4 : StableHlo.after hostOps0 W (Proc.devRef .tc main_arg4) = W (Proc.devRef .tc main_arg4) := by
  dsimp only [hostOps0]
  after_results_simp
theorem h0_keep_arg6 : StableHlo.after hostOps0 W (Proc.devRef .tc main_arg6) = W (Proc.devRef .tc main_arg6) := by
  dsimp only [hostOps0]
  after_results_simp
theorem h0_keep_arg7 : StableHlo.after hostOps0 W (Proc.devRef .tc main_arg7) = W (Proc.devRef .tc main_arg7) := by
  dsimp only [hostOps0]
  after_results_simp
theorem h0_keep_arg8 : StableHlo.after hostOps0 W (Proc.devRef .tc main_arg8) = W (Proc.devRef .tc main_arg8) := by
  dsimp only [hostOps0]
  after_results_simp
theorem h0_keep_arg9 : StableHlo.after hostOps0 W (Proc.devRef .tc main_arg9) = W (Proc.devRef .tc main_arg9) := by
  dsimp only [hostOps0]
  after_results_simp
theorem h0_keep_arg10 : StableHlo.after hostOps0 W (Proc.devRef .tc main_arg10) = W (Proc.devRef .tc main_arg10) := by
  dsimp only [hostOps0]
  after_results_simp
theorem h0_keep_arg11 : StableHlo.after hostOps0 W (Proc.devRef .tc main_arg11) = W (Proc.devRef .tc main_arg11) := by
  dsimp only [hostOps0]
  after_results_simp

/-! ### Stretch 1: round 0's weight matrix -/

theorem h1_v8 : StableHlo.after hostOps1 W (Proc.devRef .tc main_v8) = Cert.Spec.weight0 (W (Proc.devRef .tc main_arg6)) := by
  dsimp only [hostOps1]
  after_results_simp
  rfl
theorem h1_keep_v6 : StableHlo.after hostOps1 W (Proc.devRef .tc main_v6) = W (Proc.devRef .tc main_v6) := by
  dsimp only [hostOps1]
  after_results_simp
theorem h1_keep_v1 : StableHlo.after hostOps1 W (Proc.devRef .tc main_v1) = W (Proc.devRef .tc main_v1) := by
  dsimp only [hostOps1]
  after_results_simp
theorem h1_keep_v3 : StableHlo.after hostOps1 W (Proc.devRef .tc main_v3) = W (Proc.devRef .tc main_v3) := by
  dsimp only [hostOps1]
  after_results_simp
theorem h1_keep_arg6 : StableHlo.after hostOps1 W (Proc.devRef .tc main_arg6) = W (Proc.devRef .tc main_arg6) := by
  dsimp only [hostOps1]
  after_results_simp
theorem h1_keep_arg7 : StableHlo.after hostOps1 W (Proc.devRef .tc main_arg7) = W (Proc.devRef .tc main_arg7) := by
  dsimp only [hostOps1]
  after_results_simp
theorem h1_keep_arg8 : StableHlo.after hostOps1 W (Proc.devRef .tc main_arg8) = W (Proc.devRef .tc main_arg8) := by
  dsimp only [hostOps1]
  after_results_simp
theorem h1_keep_arg9 : StableHlo.after hostOps1 W (Proc.devRef .tc main_arg9) = W (Proc.devRef .tc main_arg9) := by
  dsimp only [hostOps1]
  after_results_simp
theorem h1_keep_arg10 : StableHlo.after hostOps1 W (Proc.devRef .tc main_arg10) = W (Proc.devRef .tc main_arg10) := by
  dsimp only [hostOps1]
  after_results_simp
theorem h1_keep_arg11 : StableHlo.after hostOps1 W (Proc.devRef .tc main_arg11) = W (Proc.devRef .tc main_arg11) := by
  dsimp only [hostOps1]
  after_results_simp

/-! ### Stretch 2: round 0's message passing, its offset as a one-row array and round 1's weight matrix -/

theorem h2_v19 : StableHlo.after hostOps2 W (Proc.devRef .tc main_v19) = Cert.Spec.hop (W (Proc.devRef .tc main_v9)) (W (Proc.devRef .tc main_v1)) (W (Proc.devRef .tc main_v3)) := by
  dsimp only [hostOps2]
  after_results_simp
  rfl
theorem h2_v24 : StableHlo.after hostOps2 W (Proc.devRef .tc main_v24) = Cert.Spec.offset0 (W (Proc.devRef .tc main_arg7)) := by
  dsimp only [hostOps2]
  after_results_simp
  exact row_eq (n := 128) _ _ _
theorem h2_v23 : StableHlo.after hostOps2 W (Proc.devRef .tc main_v23) = Cert.Spec.weight1 (W (Proc.devRef .tc main_arg6)) := by
  dsimp only [hostOps2]
  after_results_simp
  rfl
theorem h2_keep_v1 : StableHlo.after hostOps2 W (Proc.devRef .tc main_v1) = W (Proc.devRef .tc main_v1) := by
  dsimp only [hostOps2]
  after_results_simp
theorem h2_keep_v3 : StableHlo.after hostOps2 W (Proc.devRef .tc main_v3) = W (Proc.devRef .tc main_v3) := by
  dsimp only [hostOps2]
  after_results_simp
theorem h2_keep_arg6 : StableHlo.after hostOps2 W (Proc.devRef .tc main_arg6) = W (Proc.devRef .tc main_arg6) := by
  dsimp only [hostOps2]
  after_results_simp
theorem h2_keep_arg7 : StableHlo.after hostOps2 W (Proc.devRef .tc main_arg7) = W (Proc.devRef .tc main_arg7) := by
  dsimp only [hostOps2]
  after_results_simp
theorem h2_keep_arg8 : StableHlo.after hostOps2 W (Proc.devRef .tc main_arg8) = W (Proc.devRef .tc main_arg8) := by
  dsimp only [hostOps2]
  after_results_simp
theorem h2_keep_arg9 : StableHlo.after hostOps2 W (Proc.devRef .tc main_arg9) = W (Proc.devRef .tc main_arg9) := by
  dsimp only [hostOps2]
  after_results_simp
theorem h2_keep_arg10 : StableHlo.after hostOps2 W (Proc.devRef .tc main_arg10) = W (Proc.devRef .tc main_arg10) := by
  dsimp only [hostOps2]
  after_results_simp
theorem h2_keep_arg11 : StableHlo.after hostOps2 W (Proc.devRef .tc main_arg11) = W (Proc.devRef .tc main_arg11) := by
  dsimp only [hostOps2]
  after_results_simp

/-! ### Stretch 3: round 1's message passing, its offset as a one-row array and round 2's weight matrix -/

theorem h3_v35 : StableHlo.after hostOps3 W (Proc.devRef .tc main_v35) = Cert.Spec.hop (W (Proc.devRef .tc main_v25)) (W (Proc.devRef .tc main_v1)) (W (Proc.devRef .tc main_v3)) := by
  dsimp only [hostOps3]
  after_results_simp
  rfl
theorem h3_v40 : StableHlo.after hostOps3 W (Proc.devRef .tc main_v40) = Cert.Spec.offset1 (W (Proc.devRef .tc main_arg7)) := by
  dsimp only [hostOps3]
  after_results_simp
  exact row_eq (n := 128) _ _ _
theorem h3_v39 : StableHlo.after hostOps3 W (Proc.devRef .tc main_v39) = Cert.Spec.weight2 (W (Proc.devRef .tc main_arg6)) := by
  dsimp only [hostOps3]
  after_results_simp
  rfl
theorem h3_keep_v1 : StableHlo.after hostOps3 W (Proc.devRef .tc main_v1) = W (Proc.devRef .tc main_v1) := by
  dsimp only [hostOps3]
  after_results_simp
theorem h3_keep_v3 : StableHlo.after hostOps3 W (Proc.devRef .tc main_v3) = W (Proc.devRef .tc main_v3) := by
  dsimp only [hostOps3]
  after_results_simp
theorem h3_keep_arg7 : StableHlo.after hostOps3 W (Proc.devRef .tc main_arg7) = W (Proc.devRef .tc main_arg7) := by
  dsimp only [hostOps3]
  after_results_simp
theorem h3_keep_arg8 : StableHlo.after hostOps3 W (Proc.devRef .tc main_arg8) = W (Proc.devRef .tc main_arg8) := by
  dsimp only [hostOps3]
  after_results_simp
theorem h3_keep_arg9 : StableHlo.after hostOps3 W (Proc.devRef .tc main_arg9) = W (Proc.devRef .tc main_arg9) := by
  dsimp only [hostOps3]
  after_results_simp
theorem h3_keep_arg10 : StableHlo.after hostOps3 W (Proc.devRef .tc main_arg10) = W (Proc.devRef .tc main_arg10) := by
  dsimp only [hostOps3]
  after_results_simp
theorem h3_keep_arg11 : StableHlo.after hostOps3 W (Proc.devRef .tc main_arg11) = W (Proc.devRef .tc main_arg11) := by
  dsimp only [hostOps3]
  after_results_simp

/-! ### Stretch 4: round 2's message passing, its offset and the decoder's two offsets as one-row arrays -/

theorem h4_v51 : StableHlo.after hostOps4 W (Proc.devRef .tc main_v51) = Cert.Spec.hop (W (Proc.devRef .tc main_v41)) (W (Proc.devRef .tc main_v1)) (W (Proc.devRef .tc main_v3)) := by
  dsimp only [hostOps4]
  after_results_simp
  rfl
theorem h4_v54 : StableHlo.after hostOps4 W (Proc.devRef .tc main_v54) = Cert.Spec.offset2 (W (Proc.devRef .tc main_arg7)) := by
  dsimp only [hostOps4]
  after_results_simp
  exact row_eq (n := 128) _ _ _
theorem h4_v55 : StableHlo.after hostOps4 W (Proc.devRef .tc main_v55) = Cert.Spec.row128 (W (Proc.devRef .tc main_arg9)) := by
  dsimp only [hostOps4]
  after_results_simp
  exact row_eq (n := 128) _ _ _
theorem h4_v56 : StableHlo.after hostOps4 W (Proc.devRef .tc main_v56) = Cert.Spec.row40 (W (Proc.devRef .tc main_arg11)) := by
  dsimp only [hostOps4]
  after_results_simp
  exact row_eq (n := 40) _ _ _
theorem h4_keep_arg8 : StableHlo.after hostOps4 W (Proc.devRef .tc main_arg8) = W (Proc.devRef .tc main_arg8) := by
  dsimp only [hostOps4]
  after_results_simp
theorem h4_keep_arg10 : StableHlo.after hostOps4 W (Proc.devRef .tc main_arg10) = W (Proc.devRef .tc main_arg10) := by
  dsimp only [hostOps4]
  after_results_simp

end Stretches

/-! ## The closed forms in the launch arrays -/

section Table
variable (c : Dev nD)

/-- Argument 0 as launched. -/
abbrev a0 := m ((c : Thread nD τ).loc main_arg0)
/-- Argument 1 as launched. -/
abbrev a1 := m ((c : Thread nD τ).loc main_arg1)
/-- Argument 2 as launched. -/
abbrev a2 := m ((c : Thread nD τ).loc main_arg2)
/-- Argument 3 as launched. -/
abbrev a3 := m ((c : Thread nD τ).loc main_arg3)
/-- Argument 4 as launched. -/
abbrev a4 := m ((c : Thread nD τ).loc main_arg4)
/-- Argument 5 as launched. -/
abbrev a5 := m ((c : Thread nD τ).loc main_arg5)
/-- Argument 6 as launched. -/
abbrev a6 := m ((c : Thread nD τ).loc main_arg6)
/-- Argument 7 as launched. -/
abbrev a7 := m ((c : Thread nD τ).loc main_arg7)
/-- Argument 8 as launched. -/
abbrev a8 := m ((c : Thread nD τ).loc main_arg8)
/-- Argument 9 as launched. -/
abbrev a9 := m ((c : Thread nD τ).loc main_arg9)
/-- Argument 10 as launched. -/
abbrev a10 := m ((c : Thread nD τ).loc main_arg10)
/-- Argument 11 as launched. -/
abbrev a11 := m ((c : Thread nD τ).loc main_arg11)
/-- The edges' sources. -/
abbrev src := Cert.Spec.srcOf (a1 m c)
/-- The edges' destinations. -/
abbrev dst := Cert.Spec.dstOf (a1 m c)
/-- The encoder's first offset as a one-row array. -/
abbrev b1r := Cert.Spec.row256 (a3 m c)
/-- The encoder's second offset as a one-row array. -/
abbrev b2r := Cert.Spec.row128 (a5 m c)
/-- The encoder's result. -/
abbrev enc := Cert.Spec.encode (a0 m c) (a2 m c) (b1r m c) (a4 m c) (b2r m c)
/-- Round 0's weight matrix. -/
abbrev gw0 := Cert.Spec.weight0 (a6 m c)
/-- Round 1's weight matrix. -/
abbrev gw1 := Cert.Spec.weight1 (a6 m c)
/-- Round 2's weight matrix. -/
abbrev gw2 := Cert.Spec.weight2 (a6 m c)
/-- Round 0's offset as a one-row array. -/
abbrev gb0 := Cert.Spec.offset0 (a7 m c)
/-- Round 1's offset as a one-row array. -/
abbrev gb1 := Cert.Spec.offset1 (a7 m c)
/-- Round 2's offset as a one-row array. -/
abbrev gb2 := Cert.Spec.offset2 (a7 m c)
/-- Round 0's transformed features. -/
abbrev tr0 := Cert.Spec.transform (enc m c) (gw0 m c)
/-- Round 0's sums along the edges. -/
abbrev hp0 := Cert.Spec.hop (tr0 m c) (src m c) (dst m c)
/-- Round 0 closed and round 1's transformed features. -/
abbrev ft1 := Cert.Spec.finTransform (hp0 m c) (gb0 m c) (gw1 m c)
/-- Round 1's sums along the edges. -/
abbrev hp1 := Cert.Spec.hop (ft1 m c) (src m c) (dst m c)
/-- Round 1 closed and round 2's transformed features. -/
abbrev ft2 := Cert.Spec.finTransform (hp1 m c) (gb1 m c) (gw2 m c)
/-- Round 2's sums along the edges. -/
abbrev hp2 := Cert.Spec.hop (ft2 m c) (src m c) (dst m c)
/-- The decoder's first offset as a one-row array. -/
abbrev db1r := Cert.Spec.row128 (a9 m c)
/-- The decoder's second offset as a one-row array. -/
abbrev db2r := Cert.Spec.row40 (a11 m c)
/-- The network's result. -/
abbrev res := Cert.Spec.logSoftmax (Cert.Spec.logits (hp2 m c) (gb2 m c) (a8 m c) (db1r m c) (a10 m c) (db2r m c))

/-! ## The table: what each boundary's contents hold in each buffer still needed -/

/-! ### Boundary 1: after host stretch 0 -/

theorem W1_v1 : W1 m ρ c (Proc.devRef .tc main_v1) = src m c :=
  h0_v1 (W0 m ρ c)
theorem W1_v3 : W1 m ρ c (Proc.devRef .tc main_v3) = dst m c :=
  h0_v3 (W0 m ρ c)
theorem W1_v4 : W1 m ρ c (Proc.devRef .tc main_v4) = b1r m c :=
  h0_v4 (W0 m ρ c)
theorem W1_v5 : W1 m ρ c (Proc.devRef .tc main_v5) = b2r m c :=
  h0_v5 (W0 m ρ c)
theorem W1_arg0 : W1 m ρ c (Proc.devRef .tc main_arg0) = a0 m c :=
  h0_keep_arg0 (W0 m ρ c)
theorem W1_arg2 : W1 m ρ c (Proc.devRef .tc main_arg2) = a2 m c :=
  h0_keep_arg2 (W0 m ρ c)
theorem W1_arg4 : W1 m ρ c (Proc.devRef .tc main_arg4) = a4 m c :=
  h0_keep_arg4 (W0 m ρ c)
theorem W1_arg6 : W1 m ρ c (Proc.devRef .tc main_arg6) = a6 m c :=
  h0_keep_arg6 (W0 m ρ c)
theorem W1_arg7 : W1 m ρ c (Proc.devRef .tc main_arg7) = a7 m c :=
  h0_keep_arg7 (W0 m ρ c)
theorem W1_arg8 : W1 m ρ c (Proc.devRef .tc main_arg8) = a8 m c :=
  h0_keep_arg8 (W0 m ρ c)
theorem W1_arg9 : W1 m ρ c (Proc.devRef .tc main_arg9) = a9 m c :=
  h0_keep_arg9 (W0 m ρ c)
theorem W1_arg10 : W1 m ρ c (Proc.devRef .tc main_arg10) = a10 m c :=
  h0_keep_arg10 (W0 m ρ c)
theorem W1_arg11 : W1 m ρ c (Proc.devRef .tc main_arg11) = a11 m c :=
  h0_keep_arg11 (W0 m ρ c)

/-! ### Boundary 2: region 0's exit -/

theorem W2_v6 : W2 m ρ c (Proc.devRef .tc main_v6) = enc m c :=
  (W2_arr m ρ c 5).trans ((Region0.out (V1 m ρ) c).trans (cong5 Cert.Spec.encode (W1_arg0 m ρ c) (W1_arg2 m ρ c) (W1_v4 m ρ c) (W1_arg4 m ρ c) (W1_v5 m ρ c)))
theorem W2_v1 : W2 m ρ c (Proc.devRef .tc main_v1) = src m c :=
  (W2_of_ne m ρ c main_v1 (by decide)).trans (W1_v1 m ρ c)
theorem W2_v3 : W2 m ρ c (Proc.devRef .tc main_v3) = dst m c :=
  (W2_of_ne m ρ c main_v3 (by decide)).trans (W1_v3 m ρ c)
theorem W2_arg6 : W2 m ρ c (Proc.devRef .tc main_arg6) = a6 m c :=
  (W2_of_ne m ρ c main_arg6 (by decide)).trans (W1_arg6 m ρ c)
theorem W2_arg7 : W2 m ρ c (Proc.devRef .tc main_arg7) = a7 m c :=
  (W2_of_ne m ρ c main_arg7 (by decide)).trans (W1_arg7 m ρ c)
theorem W2_arg8 : W2 m ρ c (Proc.devRef .tc main_arg8) = a8 m c :=
  (W2_of_ne m ρ c main_arg8 (by decide)).trans (W1_arg8 m ρ c)
theorem W2_arg9 : W2 m ρ c (Proc.devRef .tc main_arg9) = a9 m c :=
  (W2_of_ne m ρ c main_arg9 (by decide)).trans (W1_arg9 m ρ c)
theorem W2_arg10 : W2 m ρ c (Proc.devRef .tc main_arg10) = a10 m c :=
  (W2_of_ne m ρ c main_arg10 (by decide)).trans (W1_arg10 m ρ c)
theorem W2_arg11 : W2 m ρ c (Proc.devRef .tc main_arg11) = a11 m c :=
  (W2_of_ne m ρ c main_arg11 (by decide)).trans (W1_arg11 m ρ c)

/-! ### Boundary 3: after host stretch 1 -/

theorem W3_v8 : W3 m ρ c (Proc.devRef .tc main_v8) = gw0 m c :=
  (h1_v8 (W2 m ρ c)).trans (congrArg Cert.Spec.weight0 (W2_arg6 m ρ c))
theorem W3_v6 : W3 m ρ c (Proc.devRef .tc main_v6) = enc m c :=
  (h1_keep_v6 (W2 m ρ c)).trans (W2_v6 m ρ c)
theorem W3_v1 : W3 m ρ c (Proc.devRef .tc main_v1) = src m c :=
  (h1_keep_v1 (W2 m ρ c)).trans (W2_v1 m ρ c)
theorem W3_v3 : W3 m ρ c (Proc.devRef .tc main_v3) = dst m c :=
  (h1_keep_v3 (W2 m ρ c)).trans (W2_v3 m ρ c)
theorem W3_arg6 : W3 m ρ c (Proc.devRef .tc main_arg6) = a6 m c :=
  (h1_keep_arg6 (W2 m ρ c)).trans (W2_arg6 m ρ c)
theorem W3_arg7 : W3 m ρ c (Proc.devRef .tc main_arg7) = a7 m c :=
  (h1_keep_arg7 (W2 m ρ c)).trans (W2_arg7 m ρ c)
theorem W3_arg8 : W3 m ρ c (Proc.devRef .tc main_arg8) = a8 m c :=
  (h1_keep_arg8 (W2 m ρ c)).trans (W2_arg8 m ρ c)
theorem W3_arg9 : W3 m ρ c (Proc.devRef .tc main_arg9) = a9 m c :=
  (h1_keep_arg9 (W2 m ρ c)).trans (W2_arg9 m ρ c)
theorem W3_arg10 : W3 m ρ c (Proc.devRef .tc main_arg10) = a10 m c :=
  (h1_keep_arg10 (W2 m ρ c)).trans (W2_arg10 m ρ c)
theorem W3_arg11 : W3 m ρ c (Proc.devRef .tc main_arg11) = a11 m c :=
  (h1_keep_arg11 (W2 m ρ c)).trans (W2_arg11 m ρ c)

/-! ### Boundary 4: region 1's exit -/

theorem W4_v9 : W4 m ρ c (Proc.devRef .tc main_v9) = tr0 m c :=
  (W4_arr m ρ c 2).trans ((Region1.out (V3 m ρ) c).trans (congrArg₂ Cert.Spec.transform (W3_v6 m ρ c) (W3_v8 m ρ c)))
theorem W4_v1 : W4 m ρ c (Proc.devRef .tc main_v1) = src m c :=
  (W4_of_ne m ρ c main_v1 (by decide)).trans (W3_v1 m ρ c)
theorem W4_v3 : W4 m ρ c (Proc.devRef .tc main_v3) = dst m c :=
  (W4_of_ne m ρ c main_v3 (by decide)).trans (W3_v3 m ρ c)
theorem W4_arg6 : W4 m ρ c (Proc.devRef .tc main_arg6) = a6 m c :=
  (W4_of_ne m ρ c main_arg6 (by decide)).trans (W3_arg6 m ρ c)
theorem W4_arg7 : W4 m ρ c (Proc.devRef .tc main_arg7) = a7 m c :=
  (W4_of_ne m ρ c main_arg7 (by decide)).trans (W3_arg7 m ρ c)
theorem W4_arg8 : W4 m ρ c (Proc.devRef .tc main_arg8) = a8 m c :=
  (W4_of_ne m ρ c main_arg8 (by decide)).trans (W3_arg8 m ρ c)
theorem W4_arg9 : W4 m ρ c (Proc.devRef .tc main_arg9) = a9 m c :=
  (W4_of_ne m ρ c main_arg9 (by decide)).trans (W3_arg9 m ρ c)
theorem W4_arg10 : W4 m ρ c (Proc.devRef .tc main_arg10) = a10 m c :=
  (W4_of_ne m ρ c main_arg10 (by decide)).trans (W3_arg10 m ρ c)
theorem W4_arg11 : W4 m ρ c (Proc.devRef .tc main_arg11) = a11 m c :=
  (W4_of_ne m ρ c main_arg11 (by decide)).trans (W3_arg11 m ρ c)

/-! ### Boundary 5: after host stretch 2 -/

theorem W5_v19 : W5 m ρ c (Proc.devRef .tc main_v19) = hp0 m c :=
  (h2_v19 (W4 m ρ c)).trans (cong3 Cert.Spec.hop (W4_v9 m ρ c) (W4_v1 m ρ c) (W4_v3 m ρ c))
theorem W5_v24 : W5 m ρ c (Proc.devRef .tc main_v24) = gb0 m c :=
  (h2_v24 (W4 m ρ c)).trans (congrArg Cert.Spec.offset0 (W4_arg7 m ρ c))
theorem W5_v23 : W5 m ρ c (Proc.devRef .tc main_v23) = gw1 m c :=
  (h2_v23 (W4 m ρ c)).trans (congrArg Cert.Spec.weight1 (W4_arg6 m ρ c))
theorem W5_v1 : W5 m ρ c (Proc.devRef .tc main_v1) = src m c :=
  (h2_keep_v1 (W4 m ρ c)).trans (W4_v1 m ρ c)
theorem W5_v3 : W5 m ρ c (Proc.devRef .tc main_v3) = dst m c :=
  (h2_keep_v3 (W4 m ρ c)).trans (W4_v3 m ρ c)
theorem W5_arg6 : W5 m ρ c (Proc.devRef .tc main_arg6) = a6 m c :=
  (h2_keep_arg6 (W4 m ρ c)).trans (W4_arg6 m ρ c)
theorem W5_arg7 : W5 m ρ c (Proc.devRef .tc main_arg7) = a7 m c :=
  (h2_keep_arg7 (W4 m ρ c)).trans (W4_arg7 m ρ c)
theorem W5_arg8 : W5 m ρ c (Proc.devRef .tc main_arg8) = a8 m c :=
  (h2_keep_arg8 (W4 m ρ c)).trans (W4_arg8 m ρ c)
theorem W5_arg9 : W5 m ρ c (Proc.devRef .tc main_arg9) = a9 m c :=
  (h2_keep_arg9 (W4 m ρ c)).trans (W4_arg9 m ρ c)
theorem W5_arg10 : W5 m ρ c (Proc.devRef .tc main_arg10) = a10 m c :=
  (h2_keep_arg10 (W4 m ρ c)).trans (W4_arg10 m ρ c)
theorem W5_arg11 : W5 m ρ c (Proc.devRef .tc main_arg11) = a11 m c :=
  (h2_keep_arg11 (W4 m ρ c)).trans (W4_arg11 m ρ c)

/-! ### Boundary 6: region 2's exit -/

theorem W6_v25 : W6 m ρ c (Proc.devRef .tc main_v25) = ft1 m c :=
  (W6_arr m ρ c 3).trans ((Region2.out (V5 m ρ) c).trans (cong3 Cert.Spec.finTransform (W5_v19 m ρ c) (W5_v24 m ρ c) (W5_v23 m ρ c)))
theorem W6_v1 : W6 m ρ c (Proc.devRef .tc main_v1) = src m c :=
  (W6_of_ne m ρ c main_v1 (by decide)).trans (W5_v1 m ρ c)
theorem W6_v3 : W6 m ρ c (Proc.devRef .tc main_v3) = dst m c :=
  (W6_of_ne m ρ c main_v3 (by decide)).trans (W5_v3 m ρ c)
theorem W6_arg6 : W6 m ρ c (Proc.devRef .tc main_arg6) = a6 m c :=
  (W6_of_ne m ρ c main_arg6 (by decide)).trans (W5_arg6 m ρ c)
theorem W6_arg7 : W6 m ρ c (Proc.devRef .tc main_arg7) = a7 m c :=
  (W6_of_ne m ρ c main_arg7 (by decide)).trans (W5_arg7 m ρ c)
theorem W6_arg8 : W6 m ρ c (Proc.devRef .tc main_arg8) = a8 m c :=
  (W6_of_ne m ρ c main_arg8 (by decide)).trans (W5_arg8 m ρ c)
theorem W6_arg9 : W6 m ρ c (Proc.devRef .tc main_arg9) = a9 m c :=
  (W6_of_ne m ρ c main_arg9 (by decide)).trans (W5_arg9 m ρ c)
theorem W6_arg10 : W6 m ρ c (Proc.devRef .tc main_arg10) = a10 m c :=
  (W6_of_ne m ρ c main_arg10 (by decide)).trans (W5_arg10 m ρ c)
theorem W6_arg11 : W6 m ρ c (Proc.devRef .tc main_arg11) = a11 m c :=
  (W6_of_ne m ρ c main_arg11 (by decide)).trans (W5_arg11 m ρ c)

/-! ### Boundary 7: after host stretch 3 -/

theorem W7_v35 : W7 m ρ c (Proc.devRef .tc main_v35) = hp1 m c :=
  (h3_v35 (W6 m ρ c)).trans (cong3 Cert.Spec.hop (W6_v25 m ρ c) (W6_v1 m ρ c) (W6_v3 m ρ c))
theorem W7_v40 : W7 m ρ c (Proc.devRef .tc main_v40) = gb1 m c :=
  (h3_v40 (W6 m ρ c)).trans (congrArg Cert.Spec.offset1 (W6_arg7 m ρ c))
theorem W7_v39 : W7 m ρ c (Proc.devRef .tc main_v39) = gw2 m c :=
  (h3_v39 (W6 m ρ c)).trans (congrArg Cert.Spec.weight2 (W6_arg6 m ρ c))
theorem W7_v1 : W7 m ρ c (Proc.devRef .tc main_v1) = src m c :=
  (h3_keep_v1 (W6 m ρ c)).trans (W6_v1 m ρ c)
theorem W7_v3 : W7 m ρ c (Proc.devRef .tc main_v3) = dst m c :=
  (h3_keep_v3 (W6 m ρ c)).trans (W6_v3 m ρ c)
theorem W7_arg7 : W7 m ρ c (Proc.devRef .tc main_arg7) = a7 m c :=
  (h3_keep_arg7 (W6 m ρ c)).trans (W6_arg7 m ρ c)
theorem W7_arg8 : W7 m ρ c (Proc.devRef .tc main_arg8) = a8 m c :=
  (h3_keep_arg8 (W6 m ρ c)).trans (W6_arg8 m ρ c)
theorem W7_arg9 : W7 m ρ c (Proc.devRef .tc main_arg9) = a9 m c :=
  (h3_keep_arg9 (W6 m ρ c)).trans (W6_arg9 m ρ c)
theorem W7_arg10 : W7 m ρ c (Proc.devRef .tc main_arg10) = a10 m c :=
  (h3_keep_arg10 (W6 m ρ c)).trans (W6_arg10 m ρ c)
theorem W7_arg11 : W7 m ρ c (Proc.devRef .tc main_arg11) = a11 m c :=
  (h3_keep_arg11 (W6 m ρ c)).trans (W6_arg11 m ρ c)

/-! ### Boundary 8: region 3's exit -/

theorem W8_v41 : W8 m ρ c (Proc.devRef .tc main_v41) = ft2 m c :=
  (W8_arr m ρ c 3).trans ((Region3.out (V7 m ρ) c).trans (cong3 Cert.Spec.finTransform (W7_v35 m ρ c) (W7_v40 m ρ c) (W7_v39 m ρ c)))
theorem W8_v1 : W8 m ρ c (Proc.devRef .tc main_v1) = src m c :=
  (W8_of_ne m ρ c main_v1 (by decide)).trans (W7_v1 m ρ c)
theorem W8_v3 : W8 m ρ c (Proc.devRef .tc main_v3) = dst m c :=
  (W8_of_ne m ρ c main_v3 (by decide)).trans (W7_v3 m ρ c)
theorem W8_arg7 : W8 m ρ c (Proc.devRef .tc main_arg7) = a7 m c :=
  (W8_of_ne m ρ c main_arg7 (by decide)).trans (W7_arg7 m ρ c)
theorem W8_arg8 : W8 m ρ c (Proc.devRef .tc main_arg8) = a8 m c :=
  (W8_of_ne m ρ c main_arg8 (by decide)).trans (W7_arg8 m ρ c)
theorem W8_arg9 : W8 m ρ c (Proc.devRef .tc main_arg9) = a9 m c :=
  (W8_of_ne m ρ c main_arg9 (by decide)).trans (W7_arg9 m ρ c)
theorem W8_arg10 : W8 m ρ c (Proc.devRef .tc main_arg10) = a10 m c :=
  (W8_of_ne m ρ c main_arg10 (by decide)).trans (W7_arg10 m ρ c)
theorem W8_arg11 : W8 m ρ c (Proc.devRef .tc main_arg11) = a11 m c :=
  (W8_of_ne m ρ c main_arg11 (by decide)).trans (W7_arg11 m ρ c)

/-! ### Boundary 9: after host stretch 4 -/

theorem W9_v51 : W9 m ρ c (Proc.devRef .tc main_v51) = hp2 m c :=
  (h4_v51 (W8 m ρ c)).trans (cong3 Cert.Spec.hop (W8_v41 m ρ c) (W8_v1 m ρ c) (W8_v3 m ρ c))
theorem W9_v54 : W9 m ρ c (Proc.devRef .tc main_v54) = gb2 m c :=
  (h4_v54 (W8 m ρ c)).trans (congrArg Cert.Spec.offset2 (W8_arg7 m ρ c))
theorem W9_v55 : W9 m ρ c (Proc.devRef .tc main_v55) = db1r m c :=
  (h4_v55 (W8 m ρ c)).trans (congrArg Cert.Spec.row128 (W8_arg9 m ρ c))
theorem W9_v56 : W9 m ρ c (Proc.devRef .tc main_v56) = db2r m c :=
  (h4_v56 (W8 m ρ c)).trans (congrArg Cert.Spec.row40 (W8_arg11 m ρ c))
theorem W9_arg8 : W9 m ρ c (Proc.devRef .tc main_arg8) = a8 m c :=
  (h4_keep_arg8 (W8 m ρ c)).trans (W8_arg8 m ρ c)
theorem W9_arg10 : W9 m ρ c (Proc.devRef .tc main_arg10) = a10 m c :=
  (h4_keep_arg10 (W8 m ρ c)).trans (W8_arg10 m ρ c)

/-! ### Boundary 10: region 4's exit -/

theorem W10_v57 : W10 m ρ c (Proc.devRef .tc main_v57) = res m c :=
  (W10_arr m ρ c 6).trans ((Region4.out (V9 m ρ) c).trans (congrArg Cert.Spec.logSoftmax (cong6 Cert.Spec.logits (W9_v51 m ρ c) (W9_v54 m ρ c) (W9_arg8 m ρ c) (W9_v55 m ρ c) (W9_arg10 m ρ c) (W9_v56 m ρ c))))

end Table

/-- THE RESULT: what the last boundary's contents hold in the result buffer is the network applied to the twelve argument
    arrays as launched. -/
theorem result_eq (c : Dev nD) :
    W10 m ρ c (Proc.devRef .tc main_v57)
      = Cert.Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  exact W10_v57 m ρ c

end Cert.KernelIdeal.Chain

end
-- ==== Proof.lean ====
/-
  The certificate: a graph network's kernel program against its reference, equal over the extended reals.

  The kernel program runs the network in five tiled regions — the encoder, the first round's dense transform, two regions
  that close one round of message passing and transform for the next, and a last one that closes the third round, decodes
  and takes the row-wise log-softmax — with the message passing itself (gather the sources' rows, add them into the
  destinations' rows) between them on the host; the reference runs the same network as one straight line of host
  operations. Over the extended reals a change of float format is the identity and a matrix product is an exact sum, so
  every region leaves in its output array the stage's whole-array function of the arrays it found (a row of each stage
  depends on that row of its input only, and the 50 blocks of 2000 rows tile the 100000 rows), the host steps between the
  regions are the reference's own operations, and both programs end with the network `Cert.Spec.network` of the twelve
  argument arrays in their result buffers: the kernel's by walking its run's boundaries back to the launch, the
  reference's by reading its line stretch by stretch. The three frames come with the runs; the idealization rewrote no
  operation, so nothing is owed for it.
-/
import proofs.«126352_j70978629534135_1_alg».proof.Defs
import proofs.«126352_j70978629534135_1_alg».proof.Proof.Gen.Kernel
import proofs.«126352_j70978629534135_1_alg».proof.Proof.BitsFrame
import proofs.«126352_j70978629534135_1_alg».proof.Proof.Gen.KernelIdeal
import proofs.«126352_j70978629534135_1_alg».proof.Proof.IdealFrame
import proofs.«126352_j70978629534135_1_alg».proof.Proof.IdealRun
import proofs.«126352_j70978629534135_1_alg».proof.Proof.Gen.ReferenceIdeal
import proofs.«126352_j70978629534135_1_alg».proof.Proof.RefRun
import proofs.«126352_j70978629534135_1_alg».proof.Proof.RefChain
import proofs.«126352_j70978629534135_1_alg».proof.Proof.Chain
import proofs.«126352_j70978629534135_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- And the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the twelve arguments both programs end with the network of those arguments in their
    result buffers. -/
theorem algebraic : Cert.algebraic_KernelIdeal_ReferenceIdeal := by
  intro m ρ m' ρ' _ hagree
  refine ⟨fun c => Cert.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_eq m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.RefChain.result_eq (F := Ideal) (StableHlo.launchContents m' c)).trans ?_
    show Cert.Spec.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
